-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S500 : S_.BroadcastsInDim S500 (![] : Fin 0 → Fin S500.rank)
  reducesTo_S500_S_d0 : S500.ReducesTo [0] S_
  bcast_S_S50000x1 : S_.BroadcastsInDim S50000x1 (![] : Fin 0 → Fin S50000x1.rank)
  reducesTo_S50000x1_S_d0_1 : S50000x1.ReducesTo [0, 1] S_

variable [Facts]

def fn_part4 {F : FTy → Type} [FloatOps F] (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg14 : FVec F S128 .f32) (main_arg15 : FVec F S500 .f32) (main_arg16 : FVec F S50000x1 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S500 .f32 := Host.absf main_arg15
  let main_cst_22 : FVec F S_ .f32 := constant S_ .f32 0x7F800000#32
  let main_v60 : FVec F S500 .f32 := broadcastInDim S500 ![] bcast_S_S500 main_cst_22
  let main_v61 : IVec S500 1 := cmpf .olt main_v59 main_v60
  let main_c_23 : IVec S_ 1 := constantI S_ 1 1#1
  let main_v62 : IVec S_ 1 := (fun x v => Host.reduce IntOp.andi x v reducesTo_S500_S_d0 h_S_) main_v61 main_c_23
  let main_v63 : IVec S_ 1 := andi main_v58 main_v62
  let main_v64 : FVec F S50000x1 .f32 := Host.absf main_arg16
  let main_cst_24 : FVec F S_ .f32 := constant S_ .f32 0x7F800000#32
  let main_v65 : FVec F S50000x1 .f32 := broadcastInDim S50000x1 ![] bcast_S_S50000x1 main_cst_24
  let main_v66 : IVec S50000x1 1 := cmpf .olt main_v64 main_v65
  let main_c_25 : IVec S_ 1 := constantI S_ 1 1#1
  let main_v67 : IVec S_ 1 := (fun x v => Host.reduce IntOp.andi x v reducesTo_S50000x1_S_d0_1 h_S_) main_v66 main_c_25
  fn_part4 (F := F) main_arg17 main_arg18 main_v63 main_v67

def fn_part2 {F : FTy → Type} [FloatOps F] (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_v48 main_v49 main_v50

def fn_part1 {F : FTy → Type} [FloatOps F] (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S50000x128 .f32) (main_arg1 : IVec S640000 32) (main_arg2 : IVec S640000 32) (main_arg3 : FVec F S640000 .f32) (main_arg4 : IVec S640000 32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S500 .f32) (main_arg16 : FVec F S50000x1 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S2000x128 : Shape := ⟨2, ![2000, 128]⟩
abbrev S1x128 : Shape := ⟨2, ![1, 128]⟩
abbrev S640000x1 : Shape := ⟨2, ![640000, 1]⟩
abbrev S_ : Shape := ⟨0, ![]⟩
abbrev S640000x128 : Shape := ⟨2, ![640000, 128]⟩
abbrev S2000x1 : Shape := ⟨2, ![2000, 1]⟩
abbrev S50000x384 : Shape := ⟨2, ![50000, 384]⟩
abbrev S2000x384 : Shape := ⟨2, ![2000, 384]⟩
abbrev S2000 : Shape := ⟨1, ![2000]⟩

abbrev nBuf : Space → Nat
  | .hbm => 69
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S640000, .i32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S500, .f32⟩
  | .hbm, ⟨16, _⟩ => ⟨S50000x1, .f32⟩
  | .hbm, ⟨17, _⟩ => ⟨S128x128, .f32⟩
  | .hbm, ⟨18, _⟩ => ⟨S128, .f32⟩
  | .hbm, ⟨19, _⟩ => ⟨S50000x128, .f32⟩
  | .hbm, ⟨20, _⟩ => ⟨S640000x1, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S50000x128, .f32⟩
  | .hbm, ⟨34, _⟩ => ⟨S640000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S_, .f32⟩
  | .hbm, ⟨48, _⟩ => ⟨S640000, .f32⟩
  | .hbm, ⟨49, _⟩ => ⟨S640000, .f32⟩
  | .hbm, ⟨50, _⟩ => ⟨S640000, .f32⟩
  | .hbm, ⟨51, _⟩ => ⟨S640000x1, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S50000x128, .f32⟩
  | .hbm, ⟨65, _⟩ => ⟨S640000x1, .i32⟩
  | .hbm, ⟨66, _⟩ => ⟨S50000x128, .f32⟩
  | .hbm, ⟨67, _⟩ => ⟨S50000x128, .f32⟩
  | .hbm, ⟨68, _⟩ => ⟨S50000x384, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x384, .f32⟩
  | .local _ .vmem, ⟨37, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  reduces_S2000x128_S2000 : S2000x128.Reduces [1] S2000
  shapeCasts_S2000_S2000x1 : S2000.ShapeCasts S2000x1
  inb_S2000x384_S2000x128_0_0 : ∀ a, (![0, 0] : Fin 2 → Nat) a + S2000x128.size a ≤ S2000x384.size a
  inb_S2000x384_S2000x128_0_128 : ∀ a, (![0, 128] : Fin 2 → Nat) a + S2000x128.size a ≤ S2000x384.size a
  inb_S2000x384_S2000x128_0_256 : ∀ a, (![0, 256] : Fin 2 → Nat) a + S2000x128.size a ≤ S2000x384.size a
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S500_S640000x1_S640000_n_0_n_n_0_1_1_wf : GatherDims.WF S500 S640000x1 S640000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x384.size a ≤ S50000x384.size a
  hwx3_3 : ∀ i : grid3.Coords, EltTy.bits .f32 = 32 ∨ (Rect.block (s := S50000x384) S2000x384.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S500_S640000x1_S640000_n_0_n_n_0_1_1 : GatherDims S500 S640000x1 S640000 where
  offsetDims := []
  collapsedSliceDims := [0]
  operandBatchingDims := []
  startIndicesBatchingDims := []
  startIndexMap := [0]
  indexVectorDim := 1
  sliceSizes := ![1]
  wf := gather_S500_S640000x1_S640000_n_0_n_n_0_1_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S2000x384.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000 : Shape := ⟨1, ![640000]⟩
abbrev S128 : Shape := ⟨1, ![128]⟩
abbrev S128x128 : Shape := ⟨2, ![128, 128]⟩
abbrev S500 : Shape := ⟨1, ![500]⟩
abbrev S50000x1 : Shape := ⟨2, ![50000, 1]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x384 : Shape := ⟨2, ![50000, 384]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S640000, .f32⟩
  | 4 => ⟨S640000, .i32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S500, .f32⟩
  | 16 => ⟨S50000x1, .f32⟩
  | 17 => ⟨S128x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S640000x1, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S640000x128, .f32⟩
  | 47 => ⟨S640000x128, .f32⟩
  | 48 => ⟨S_, .f32⟩
  | 49 => ⟨S50000x128, .f32⟩
  | 50 => ⟨S640000x1, .i32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000, .f32⟩
  | 81 => ⟨S_, .f32⟩
  | 82 => ⟨S640000, .f32⟩
  | 83 => ⟨S640000, .f32⟩
  | 84 => ⟨S640000, .f32⟩
  | 85 => ⟨S640000x1, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S640000x128, .f32⟩
  | 96 => ⟨S640000x128, .f32⟩
  | 97 => ⟨S_, .f32⟩
  | 98 => ⟨S50000x128, .f32⟩
  | 99 => ⟨S640000x1, .i32⟩
  | 100 => ⟨S50000x128, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x1, .f32⟩
  | 11 => ⟨S50000x128, .f32⟩
  | 12 => ⟨S50000x128, .f32⟩
  | 13 => ⟨S50000x384, .f32⟩
  | 14 => ⟨S50000x384, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x1, .f32⟩
  | 22 => ⟨S50000x384, .f32⟩
  | 23 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_3 : Ref sig .tc := ⟨.hbm, 72, rfl⟩
abbrev main_v48 : Ref sig .tc := ⟨.hbm, 73, rfl⟩
abbrev main_v49 : Ref sig .tc := ⟨.hbm, 74, rfl⟩
abbrev main_c_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_6 : Ref sig .tc := ⟨.hbm, 86, rfl⟩
abbrev main_v59 : Ref sig .tc := ⟨.hbm, 87, rfl⟩
abbrev main_v60 : Ref sig .tc := ⟨.hbm, 88, rfl⟩
abbrev main_c_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_16 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  concatenates_S50000x128_S50000x128_S50000x128_S50000x384_d1 : Shape.Concatenates [S50000x128, S50000x128, S50000x128] S50000x384 1
  reducesTo_S50000x384_S50000_d1 : S50000x384.ReducesTo [1] S50000
  bcast_S50000x1_S50000x384_0_1 : S50000x1.BroadcastsInDim S50000x384 (![0, 1] : Fin 2 → Fin S50000x384.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S500_S640000x1_S640000_n_0_n_n_0_1_1_wf : GatherDims.WF S500 S640000x1 S640000 [] [0] [] [0] [] 1 ![1]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S500_S640000x1_S640000_n_0_n_n_0_1_1 : GatherDims S500 S640000x1 S640000 where
  offsetDims := []
  collapsedSliceDims := [0]
  operandBatchingDims := []
  startIndicesBatchingDims := []
  startIndexMap := [0]
  indexVectorDim := 1
  sliceSizes := ![1]
  wf := gather_S500_S640000x1_S640000_n_0_n_n_0_1_1_wf

class Facts : Prop extends Facts₀ where

variable [Facts]
-- ==== Proof.Spec.lean ====
/-
  What the two programs compute, entry by entry, on the extended reals.

  A graph layer pair over N = 50000 nodes of width D = 128: a normalised input projected by a D×D matrix, an
  edge-weighted neighbourhood sum, a hyperbolic tangent, a second normalisation, a second neighbourhood sum mixed with a
  per-node multiple of the node's own row and projected again, and last the three per-layer rows each scaled to unit
  length, laid side by side and scaled to unit length once more. The two neighbourhood sums are taken by the same
  host operations in both programs and are never opened here; every other stage is written below as a function of the
  arrays it reads, one entry at a time. Nothing here depends on either program.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Mat (n0 n1 : Nat) : Type := (⟨2, ![n0, n1]⟩ : Shape).Idx → EReal
/-- A rank-1 array of extended reals. -/
abbrev Row (n : Nat) : Type := (⟨1, ![n]⟩ : Shape).Idx → EReal

/-- A rank-2 array given entry by entry. -/
def ofEntries {n0 n1 : Nat} (f : Fin n0 → Fin n1 → EReal) : Mat n0 n1 := fun i => f (i 0) (i 1)

theorem ofEntries_ix2 {n0 n1 : Nat} (f : Fin n0 → Fin n1 → EReal) (r : Fin n0) (k : Fin n1) :
    ofEntries f (ix2 r k) = f r k := rfl

/-- The floor added to a variance before its inverse square root: the value of the f32 word nearest 1/1000. -/
def epsNorm : EReal := Ideal.ofBits .f32 0x3A83126F#32
/-- The floor under a squared length before its inverse square root: the value of the f32 word nearest 1e-12. -/
def epsUnit : EReal := Ideal.ofBits .f32 0x2B8CBCCC#32
/-- The f32 word of one. -/
def oneF : EReal := Ideal.ofBits .f32 0x3F800000#32

/-- One normalised entry: (h − mean) · (var + ε)^(−1/2) · gamma + beta, the statistics indexed by the column. -/
def normAt (h : Mat 50000 128) (gamma beta mean var : Row 128) (r : Fin 50000) (k : Fin 128) : EReal :=
  (h (ix2 r k) - mean (ix1 k)) * Ideal.rsqrt (var (ix1 k) + epsNorm) * gamma (ix1 k) + beta (ix1 k)

/-- One entry of the normalised input times the first weight matrix. -/
def projAt (x : Mat 50000 128) (gamma beta mean var : Row 128) (W : Mat 128 128) (r : Fin 50000) (j : Fin 128) : EReal :=
  ∑ k : Fin 128, normAt x gamma beta mean var r k * W (ix2 k j)

/-- One entry of the first layer's output: tanh of the neighbourhood sum plus the bias. -/
def actAt (s : Mat 50000 128) (b : Row 128) (r : Fin 50000) (j : Fin 128) : EReal :=
  Ideal.tanh (s (ix2 r j) + b (ix1 j))

/-- One entry of the second layer's output: the neighbourhood sum plus the node's own normalised row times
    (coefficient + 1), projected by the second weight matrix, plus the bias. -/
def mixAt (agg h2 : Mat 50000 128) (ck : Mat 50000 1) (Wd : Mat 128 128) (bd : Row 128) (r : Fin 50000) (j : Fin 128) : EReal :=
  (∑ k : Fin 128, (agg (ix2 r k) + h2 (ix2 r k) * (ck (ix2 r 0) + oneF)) * Wd (ix2 k j)) + bd (ix1 j)

/-- The factor that scales row `r` of `a` to unit length: (max (Σ_k a(r,k)²) ε)^(−1/2). -/
def unitScale (a : Mat 50000 128) (r : Fin 50000) : EReal :=
  Ideal.rsqrt (max (∑ k : Fin 128, a (ix2 r k) * a (ix2 r k)) epsUnit)

/-- One entry of `a` with its row scaled to unit length. -/
def unitAt (a : Mat 50000 128) (r : Fin 50000) (j : Fin 128) : EReal := a (ix2 r j) * unitScale a r

/-- The squared length of the three unit-scaled rows laid side by side, summed part by part. -/
def totalSq (x y1 y2 : Mat 50000 128) (r : Fin 50000) : EReal :=
  ((∑ k : Fin 128, unitAt x r k * unitAt x r k) + (∑ k : Fin 128, unitAt y1 r k * unitAt y1 r k))
    + (∑ k : Fin 128, unitAt y2 r k * unitAt y2 r k)

/-- The factor that scales the joined row to unit length. -/
def joinScale (x y1 y2 : Mat 50000 128) (r : Fin 50000) : EReal := Ideal.rsqrt (max (totalSq x y1 y2 r) epsUnit)

/-- One entry of the three unit-scaled rows laid side by side: columns 0–127 from `x`, 128–255 from `y1`, 256–383
    from `y2`. -/
def joinAt (x y1 y2 : Mat 50000 128) (r : Fin 50000) (j : Fin 384) : EReal :=
  if h : j.val < 128 then unitAt x r ⟨j.val, h⟩
  else if h' : j.val < 256 then unitAt y1 r ⟨j.val - 128, by omega⟩
  else unitAt y2 r ⟨j.val - 256, by omega⟩

/-- One entry of the result: the joined row scaled to unit length. -/
def outAt (x y1 y2 : Mat 50000 128) (r : Fin 50000) (j : Fin 384) : EReal :=
  joinAt x y1 y2 r j * joinScale x y1 y2 r

/-- A sum over the 384 joined columns is the sum of the three parts' sums (addition on the extended reals is
    commutative and associative, so no finiteness is needed). -/
theorem sum_join (f : EReal → EReal) (x y1 y2 : Mat 50000 128) (r : Fin 50000) :
    ∑ j : Fin 384, f (joinAt x y1 y2 r j)
      = ((∑ k : Fin 128, f (unitAt x r k)) + (∑ k : Fin 128, f (unitAt y1 r k))) + (∑ k : Fin 128, f (unitAt y2 r k)) := by
  have e : ∑ j : Fin 384, f (joinAt x y1 y2 r j) = ∑ j : Fin (128 + 128 + 128), f (joinAt x y1 y2 r ⟨j.val, j.isLt⟩) := rfl
  rw [e, Fin.sum_univ_add, Fin.sum_univ_add]
  rfl

end Cert.Spec

end
-- ==== Proof.Chains.lean ====
/-
  The two neighbourhood sums and the edge weights of the second one, each as ONE function of the arrays it reads, and
  the whole result as the composition of the stages.

  Both programs take a neighbourhood sum by the same host operations: the source node indices, negative ones wrapped by
  the node count, gather rows of the node array; each gathered row is multiplied by its edge's weight; the products are
  added into a zero array at the destination node indices. The second sum's weights are the edge values divided by
  (a per-relation coefficient, gathered by the wrapped relation index, plus one). These chains are carried as they
  are printed and never opened: the certificate only needs that both programs apply them to equal arrays.
-/
import proofs.«129878_j77163382440873_1_alg».proof.ReferenceIdeal
import proofs.«129878_j77163382440873_1_alg».proof.Proof.Gen.ReferenceIdeal
import proofs.«129878_j77163382440873_1_alg».proof.Proof.Spec

noncomputable section

namespace Cert.Chains

open Idealize.ShloMosaic Cert.ReferenceIdeal Cert.ReferenceIdeal.Gen Cert.Spec

variable {F : FTy → Type} [FloatOps F]

/-- The edge-weighted neighbourhood sum of the node array `h`: Σ over edges e with rows(e) = r of w(e) · h(cols(e), ·). -/
def aggOf (h : (⟨S50000x128, .f32⟩ : BufTy).Contents (Elt F)) (w : (⟨S640000, .f32⟩ : BufTy).Contents (Elt F))
    (rows cols : (⟨S640000, .i32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 rows)
    (mulf (broadcastInDim S640000x128 ![0, 1] bcast_S640000x1_S640000x128_0_1 (broadcastInDim S640000x1 ![0] bcast_S640000_S640000x1_0 w))
      (Host.gather gather_S50000x128_S640000x1_S640000x128_1_0_n_n_0_1_1128 h
        (broadcastInDim S640000x1 ![0] bcast_S640000_S640000x1_0
          (select (cmpi .slt cols (broadcastInDim S640000 ![] bcast_S_S640000 (constantI S_ 32 0#32)))
            (addi cols (broadcastInDim S640000 ![] bcast_S_S640000 (constantI S_ 32 50000#32))) cols))))

/-- The second sum's edge weights: w(e) / (coeffs(rel(e)) + 1). -/
def evOf (w : (⟨S640000, .f32⟩ : BufTy).Contents (Elt F)) (rel : (⟨S640000, .i32⟩ : BufTy).Contents (Elt F))
    (coeffs : (⟨S500, .f32⟩ : BufTy).Contents (Elt F)) : (⟨S640000, .f32⟩ : BufTy).Contents (Elt F) :=
  Host.divf w
    (addf (Host.gather gather_S500_S640000x1_S640000_n_0_n_n_0_1_1 coeffs
        (broadcastInDim S640000x1 ![0] bcast_S640000_S640000x1_0
          (select (cmpi .slt rel (broadcastInDim S640000 ![] bcast_S_S640000 (constantI S_ 32 0#32)))
            (addi rel (broadcastInDim S640000 ![] bcast_S_S640000 (constantI S_ 32 500#32))) rel)))
      (broadcastInDim S640000 ![] bcast_S_S640000 (constant S_ .f32 0x3F800000#32)))

/-- The first layer's output as a whole array. -/
def layer1 (x0 : Mat 50000 128) (x1 x2 : (⟨S640000, .i32⟩ : BufTy).Contents (Elt Ideal)) (x3 : (⟨S640000, .f32⟩ : BufTy).Contents (Elt Ideal))
    (x5 x6 x7 x8 : Row 128) (x9 : Mat 128 128) (x10 : Row 128) : Mat 50000 128 :=
  ofEntries (actAt (aggOf (F := Ideal) (ofEntries (projAt x0 x5 x6 x7 x8 x9)) x3 x1 x2) x10)

/-- The second layer's normalised input as a whole array. -/
def hidden2 (x0 : Mat 50000 128) (x1 x2 : (⟨S640000, .i32⟩ : BufTy).Contents (Elt Ideal)) (x3 : (⟨S640000, .f32⟩ : BufTy).Contents (Elt Ideal))
    (x5 x6 x7 x8 : Row 128) (x9 : Mat 128 128) (x10 x11 x12 x13 x14 : Row 128) : Mat 50000 128 :=
  ofEntries (normAt (layer1 x0 x1 x2 x3 x5 x6 x7 x8 x9 x10) x11 x12 x13 x14)

/-- The second layer's output as a whole array. -/
def layer2 (x0 : Mat 50000 128) (x1 x2 : (⟨S640000, .i32⟩ : BufTy).Contents (Elt Ideal)) (x3 : (⟨S640000, .f32⟩ : BufTy).Contents (Elt Ideal))
    (x4 : (⟨S640000, .i32⟩ : BufTy).Contents (Elt Ideal)) (x5 x6 x7 x8 : Row 128) (x9 : Mat 128 128) (x10 x11 x12 x13 x14 : Row 128)
    (x15 : (⟨S500, .f32⟩ : BufTy).Contents (Elt Ideal)) (x16 : Mat 50000 1) (x17 : Mat 128 128) (x18 : Row 128) : Mat 50000 128 :=
  ofEntries (mixAt (aggOf (F := Ideal) (hidden2 x0 x1 x2 x3 x5 x6 x7 x8 x9 x10 x11 x12 x13 x14) (evOf (F := Ideal) x3 x4 x15) x1 x2)
    (hidden2 x0 x1 x2 x3 x5 x6 x7 x8 x9 x10 x11 x12 x13 x14) x16 x17 x18)

/-- The result of both programs as one function of the nineteen argument arrays. -/
def whole (x0 : Mat 50000 128) (x1 x2 : (⟨S640000, .i32⟩ : BufTy).Contents (Elt Ideal)) (x3 : (⟨S640000, .f32⟩ : BufTy).Contents (Elt Ideal))
    (x4 : (⟨S640000, .i32⟩ : BufTy).Contents (Elt Ideal)) (x5 x6 x7 x8 : Row 128) (x9 : Mat 128 128) (x10 x11 x12 x13 x14 : Row 128)
    (x15 : (⟨S500, .f32⟩ : BufTy).Contents (Elt Ideal)) (x16 : Mat 50000 1) (x17 : Mat 128 128) (x18 : Row 128) : Mat 50000 384 :=
  ofEntries (outAt x0 (layer1 x0 x1 x2 x3 x5 x6 x7 x8 x9 x10)
    (layer2 x0 x1 x2 x3 x4 x5 x6 x7 x8 x9 x10 x11 x12 x13 x14 x15 x16 x17 x18))

end Cert.Chains

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
import proofs.«129878_j77163382440873_1_alg».proof.Proof.Gen.KernelIdeal.Frame
import proofs.«129878_j77163382440873_1_alg».proof.Proof.Spec
import proofs.«129878_j77163382440873_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec
open scoped BigOperators

/-- A 128-vector laid as one row and repeated over 2000 rows reads, at (p, k), the vector's entry k. -/
theorem rowBroadcast_apply (v : Vec Ideal S128 .f32) (p : Fin 2000) (k : Fin 128) :
    broadcastTo S2000x128 (shapeCast S1x128 v shapeCasts_S128_S1x128) broadcasts_S1x128_S2000x128 (ix2 p k) = v (ix1 k) := by
  rw [broadcastTo_1b_ab_apply, shapeCast_a_1a_apply]

/-- The body's stored value at entry (p, q): the sum over k of the normalised entry (p, k) times W (k, q). -/
theorem pay_apply (x0 : Vec Ideal S2000x128 .f32) (mean var gamma beta : Vec Ideal S128 .f32) (W : Vec Ideal S128x128 .f32)
    (p : Fin 2000) (q : Fin 128) :
    k0_pay1 (F := Ideal) x0 mean var gamma beta W (ix2 p q)
      = ∑ k : Fin 128, ((x0 (ix2 p k) - mean (ix1 k)) * Ideal.rsqrt (var (ix1 k) + epsNorm) * gamma (ix1 k) + beta (ix1 k))
          * W (ix2 k q) := by
  unfold k0_pay1
  show FloatOps.matmul (DotDims.plain 2000 128 128) none _ _ (constant ⟨2, ![2000, 128]⟩ .f32 0x00000000#32) (ix2 p q) = _
  rw [PlainDot.matmul_zero_apply]
  refine Finset.sum_congr rfl fun k _ => ?_
  rw [truncf_apply, truncf_apply, addf_apply, mulf_apply, mulf_apply, subf_apply,
    rowBroadcast_apply, rowBroadcast_apply, rowBroadcast_apply, rowBroadcast_apply]
  rfl

/-- The stored value at block entry (p, q) is the whole-array function at (r, j) as soon as the loaded blocks read the
    arrays there: row p of the input block is row r of the input, the four statistics are read whole, and column q of
    the weight block is column j of the weights. -/
theorem pay_eq_projAt (X : Mat 50000 128) (gamma beta mean var : Row 128) (W : Mat 128 128)
    (x0 : Vec Ideal S2000x128 .f32) (mn vr g b : Vec Ideal S128 .f32) (w : Vec Ideal S128x128 .f32)
    (p : Fin 2000) (q : Fin 128) (r : Fin 50000) (j : Fin 128)
    (h0 : ∀ k : Fin 128, x0 (ix2 p k) = X (ix2 r k))
    (h1 : ∀ k : Fin 128, mn (ix1 k) = mean (ix1 k))
    (h2 : ∀ k : Fin 128, vr (ix1 k) = var (ix1 k))
    (h3 : ∀ k : Fin 128, g (ix1 k) = gamma (ix1 k))
    (h4 : ∀ k : Fin 128, b (ix1 k) = beta (ix1 k))
    (h5 : ∀ k : Fin 128, w (ix2 k q) = W (ix2 k j)) :
    k0_pay1 (F := Ideal) x0 mn vr g b w (ix2 p q) = projAt X gamma beta mean var W r j := by
  rw [pay_apply]
  unfold projAt normAt
  refine Finset.sum_congr rfl fun k _ => ?_
  rw [h0, h1, h2, h3, h4, h5]

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the input's row block moves with the output's, every other
    block index is zero, and the output's row-block index stays below 25. -/
theorem idx_facts : ∀ t : Fin cfg0.N,
    win0_0.index t (0 : Fin 2) = win0_6.index t (0 : Fin 2)
    ∧ win0_0.index t (1 : Fin 2) = 0
    ∧ win0_1.index t (0 : Fin 1) = 0
    ∧ win0_2.index t (0 : Fin 1) = 0
    ∧ win0_3.index t (0 : Fin 1) = 0
    ∧ win0_4.index t (0 : Fin 1) = 0
    ∧ win0_5.index t (0 : Fin 2) = 0
    ∧ win0_5.index t (1 : Fin 2) = 0
    ∧ win0_6.index t (0 : Fin 2) ≤ 24
    ∧ win0_6.index t (1 : Fin 2) = 0 :=
  (by decide +kernel : ∀ t : Fin grid0.N, _)

/-- Every one of the 25 row blocks is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

variable (V : (c : Dev nD) → (b : Ref sig .tc) → Buf (Elt Ideal) ((c : Thread nD τ).loc b))

/-- What point t writes back is block t of the whole-array function. -/
theorem flushed_eq (c : Dev nD) (t : Fin cfg0.N) :
    (dat0 (F := Ideal) V c).flushed 6 t = ((cfg0.win 6).blk t).view.read (Elt Ideal)
      (ofEntries (projAt (V c main_arg0) (V c main_arg5) (V c main_arg6) (V c main_arg7) (V c main_arg8) (V c main_arg9))) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128) hz1, View.ld_unit_zero (S := S128x128) hz2]
  obtain ⟨e0, e1, e2, e3, e4, e5, e6, e7, e8, e9⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 3 t) (iblk0 V c 4 t) (iblk0 V c 1 t) (iblk0 V c 2 t) (iblk0 V c 5 t) (ix2 p q)
      = projAt (V c main_arg0) (V c main_arg5) (V c main_arg6) (V c main_arg7) (V c main_arg8) (V c main_arg9)
          ((((cfg0.win 6).blk t).view.emb (ix2 p q)) 0) ((((cfg0.win 6).blk t).view.emb (ix2 p q)) 1)
  refine pay_eq_projAt _ _ _ _ _ _ _ _ _ _ _ _ p q _ _ (fun k => ?_) (fun k => ?_) (fun k => ?_) (fun k => ?_) (fun k => ?_) (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  · show V c main_arg7 (((cfg0.win 3).blk t).view.emb (ix1 k)) = V c main_arg7 _
    refine congrArg _ (funext fun a => Fin.ext ?_)
    match a with
    | ⟨0, _⟩ => show win0_3.index t (0 : Fin 1) * 128 + 1 * k.val = k.val; omega
  · show V c main_arg8 (((cfg0.win 4).blk t).view.emb (ix1 k)) = V c main_arg8 _
    refine congrArg _ (funext fun a => Fin.ext ?_)
    match a with
    | ⟨0, _⟩ => show win0_4.index t (0 : Fin 1) * 128 + 1 * k.val = k.val; omega
  · show V c main_arg5 (((cfg0.win 1).blk t).view.emb (ix1 k)) = V c main_arg5 _
    refine congrArg _ (funext fun a => Fin.ext ?_)
    match a with
    | ⟨0, _⟩ => show win0_1.index t (0 : Fin 1) * 128 + 1 * k.val = k.val; omega
  · show V c main_arg6 (((cfg0.win 2).blk t).view.emb (ix1 k)) = V c main_arg6 _
    refine congrArg _ (funext fun a => Fin.ext ?_)
    match a with
    | ⟨0, _⟩ => show win0_2.index t (0 : Fin 1) * 128 + 1 * k.val = k.val; omega
  · show V c main_arg9 (((cfg0.win 5).blk t).view.emb (ix2 k q)) = V c main_arg9 _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v0).slice (win0_6.rect t)).set ↔ _
  rw [View.set_slice_whole, Rect.mem_set_unit]
  exact Iff.rfl

/-- The 25 blocks of 2000 rows fill the 50000 rows: row r lies in block r / 2000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After the first kernel region its output array holds, at every entry, the normalised input times the first weight
    matrix: every one of the 25 row blocks is written once, with that block of the whole-array function. -/
theorem final0 (c : Dev nD) :
    (dat0 (F := Ideal) V c).arrAt 6 cfg0.N
      = ofEntries (projAt (V c main_arg0) (V c main_arg5) (V c main_arg6) (V c main_arg7) (V c main_arg8) (V c main_arg9)) :=
  (dat0 (F := Ideal) V c).arrAt_eq_of_cover 6 _ (fun t _ => flushed_eq V c t) cover

end Cert.KernelIdeal.Region0

end
-- ==== Proof.Region1.lean ====
import proofs.«129878_j77163382440873_1_alg».proof.Proof.Gen.KernelIdeal.Frame
import proofs.«129878_j77163382440873_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec
open scoped BigOperators

/-! ## The payloads at an entry -/

/-- A length-128 row recast as one row and repeated down 2000 rows reads, at `(p, q)`, the row's entry `q`. -/
theorem row_apply (x : Vec Ideal S128 .f32) (p : Fin 2000) (q : Fin 128) :
    broadcastTo S2000x128 (shapeCast S1x128 x shapeCasts_S128_S1x128) broadcasts_S1x128_S2000x128 (ix2 p q) = x (ix1 q) := by
  rw [broadcastTo_1b_ab_apply, shapeCast_a_1a_apply]

/-- The first stored value at `(p, q)`: tanh of the block entry plus the bias entry of its column. -/
theorem pay1_apply (x0 : Vec Ideal S2000x128 .f32) (x1 : Vec Ideal S128 .f32) (p : Fin 2000) (q : Fin 128) :
    k1_pay1 (F := Ideal) x0 x1 (ix2 p q) = Ideal.tanh (x0 (ix2 p q) + x1 (ix1 q)) := by
  unfold k1_pay1
  show Ideal.tanh (shapeCast S2000x128 x0 shapeCasts_S2000x128_S2000x128 (ix2 p q)
    + broadcastTo S2000x128 (shapeCast S1x128 x1 shapeCasts_S128_S1x128) broadcasts_S1x128_S2000x128 (ix2 p q)) = _
  rw [shapeCast_self, row_apply]

/-- The second stored value at `(p, q)`: the first, minus the mean, times the inverse square root of the variance plus
    the floor, times the scale, plus the shift, each statistic at column `q`. -/
theorem pay2_apply (x0 : Vec Ideal S2000x128 .f32) (x1 mean var gamma beta : Vec Ideal S128 .f32) (p : Fin 2000) (q : Fin 128) :
    k1_pay2 (F := Ideal) x0 x1 mean var gamma beta (ix2 p q)
      = (Ideal.tanh (x0 (ix2 p q) + x1 (ix1 q)) - mean (ix1 q)) * Ideal.rsqrt (var (ix1 q) + epsNorm) * gamma (ix1 q) + beta (ix1 q) := by
  unfold k1_pay2
  show ((k1_pay1 (F := Ideal) x0 x1 (ix2 p q)
      - broadcastTo S2000x128 (shapeCast S1x128 mean shapeCasts_S128_S1x128) broadcasts_S1x128_S2000x128 (ix2 p q))
      * broadcastTo S2000x128 (shapeCast S1x128 (rsqrt (addf var (broadcast S128 (Scalar.ofBits .f32 0x3A83126F#32)))) shapeCasts_S128_S1x128) broadcasts_S1x128_S2000x128 (ix2 p q)
      * broadcastTo S2000x128 (shapeCast S1x128 gamma shapeCasts_S128_S1x128) broadcasts_S1x128_S2000x128 (ix2 p q))
      + broadcastTo S2000x128 (shapeCast S1x128 beta shapeCasts_S128_S1x128) broadcasts_S1x128_S2000x128 (ix2 p q) = _
  rw [row_apply, row_apply, row_apply, row_apply, pay1_apply]
  rfl

variable (V : (c : Dev nD) → (b : Ref sig .tc) → Buf (Elt Ideal) ((c : Thread nD τ).loc b))

/-! ## Where each block sits -/

theorem hz2 : (![0, 0] : Fin 2 → Nat) = fun _ => 0 := funext fun a => by fin_cases a <;> rfl
theorem hz1 : (![0] : Fin 1 → Nat) = fun _ => 0 := funext fun a => by fin_cases a <;> rfl

/-- The block indices over the 25 points: the three [2000,128] windows sit at block row `t`, column block 0; the five
    length-128 windows at block 0. -/
theorem idx_facts : ∀ t : Fin cfg1.N,
    win1_0.index t (0 : Fin 2) = t.val ∧ win1_0.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0 :=
  (by decide +kernel : ∀ t : Fin grid1.N, _)

/-- The array row that row `p` of point `t`'s block is: `t · 2000 + p`. -/
def rowOf (t : Fin cfg1.N) (p : Fin 2000) : Fin 50000 :=
  ⟨t.val * 2000 + p.val, by have := t.isLt; have h : cfg1.N = 25 := N_1; have := p.isLt; omega⟩

/-- Point `t`'s block of the neighbourhood sum at `(p, q)` is the array at `(t · 2000 + p, q)`. -/
theorem in0 (c : Dev nD) (t : Fin cfg1.N) (p : Fin 2000) (q : Fin 128) :
    iblk1 V c 0 t (ix2 p q) = V c main_v13 (ix2 (rowOf t p) q) := by
  obtain ⟨e00, e01, -⟩ := idx_facts t
  show V c main_v13 (((cfg1.win 0).blk t).view.emb (ix2 p q)) = V c main_v13 (ix2 (rowOf t p) q)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * q.val = q.val; omega

/-- Each length-128 window's block is its whole row. -/
theorem in1 (c : Dev nD) (t : Fin cfg1.N) (q : Fin 128) : iblk1 V c 1 t (ix1 q) = V c main_arg10 (ix1 q) := by
  obtain ⟨-, -, -, -, -, -, e1, e2, e3, e4, e5⟩ := idx_facts t
  show V c main_arg10 (((cfg1.win 1).blk t).view.emb (ix1 q)) = V c main_arg10 (ix1 q)
  refine congrArg _ (funext fun a => Fin.ext ?_)
  match a with
  | ⟨0, _⟩ => show win1_1.index t (0 : Fin 1) * 128 + 1 * q.val = q.val; omega

theorem in2 (c : Dev nD) (t : Fin cfg1.N) (q : Fin 128) : iblk1 V c 2 t (ix1 q) = V c main_arg11 (ix1 q) := by
  obtain ⟨-, -, -, -, -, -, e1, e2, e3, e4, e5⟩ := idx_facts t
  show V c main_arg11 (((cfg1.win 2).blk t).view.emb (ix1 q)) = V c main_arg11 (ix1 q)
  refine congrArg _ (funext fun a => Fin.ext ?_)
  match a with
  | ⟨0, _⟩ => show win1_2.index t (0 : Fin 1) * 128 + 1 * q.val = q.val; omega

theorem in3 (c : Dev nD) (t : Fin cfg1.N) (q : Fin 128) : iblk1 V c 3 t (ix1 q) = V c main_arg12 (ix1 q) := by
  obtain ⟨-, -, -, -, -, -, e1, e2, e3, e4, e5⟩ := idx_facts t
  show V c main_arg12 (((cfg1.win 3).blk t).view.emb (ix1 q)) = V c main_arg12 (ix1 q)
  refine congrArg _ (funext fun a => Fin.ext ?_)
  match a with
  | ⟨0, _⟩ => show win1_3.index t (0 : Fin 1) * 128 + 1 * q.val = q.val; omega

theorem in4 (c : Dev nD) (t : Fin cfg1.N) (q : Fin 128) : iblk1 V c 4 t (ix1 q) = V c main_arg13 (ix1 q) := by
  obtain ⟨-, -, -, -, -, -, e1, e2, e3, e4, e5⟩ := idx_facts t
  show V c main_arg13 (((cfg1.win 4).blk t).view.emb (ix1 q)) = V c main_arg13 (ix1 q)
  refine congrArg _ (funext fun a => Fin.ext ?_)
  match a with
  | ⟨0, _⟩ => show win1_4.index t (0 : Fin 1) * 128 + 1 * q.val = q.val; omega

theorem in5 (c : Dev nD) (t : Fin cfg1.N) (q : Fin 128) : iblk1 V c 5 t (ix1 q) = V c main_arg14 (ix1 q) := by
  obtain ⟨-, -, -, -, -, -, e1, e2, e3, e4, e5⟩ := idx_facts t
  show V c main_arg14 (((cfg1.win 5).blk t).view.emb (ix1 q)) = V c main_arg14 (ix1 q)
  refine congrArg _ (funext fun a => Fin.ext ?_)
  match a with
  | ⟨0, _⟩ => show win1_5.index t (0 : Fin 1) * 128 + 1 * q.val = q.val; omega

/-- Entry `(p, q)` of point `t`'s block of either output is the array's entry `(t · 2000 + p, q)`. -/
theorem emb6 (t : Fin cfg1.N) (p : Fin 2000) (q : Fin 128) :
    ((cfg1.win 6).blk t).view.emb (ix2 p q) = ix2 (rowOf t p) q := by
  obtain ⟨-, -, e60, e61, -⟩ := idx_facts t
  refine funext fun a => Fin.ext ?_
  match a with
  | ⟨0, _⟩ => show win1_6.index t (0 : Fin 2) * 2000 + 1 * p.val = t.val * 2000 + p.val; omega
  | ⟨1, _⟩ => show win1_6.index t (1 : Fin 2) * 128 + 1 * q.val = q.val; omega

theorem emb7 (t : Fin cfg1.N) (p : Fin 2000) (q : Fin 128) :
    ((cfg1.win 7).blk t).view.emb (ix2 p q) = ix2 (rowOf t p) q := by
  obtain ⟨-, -, -, -, e70, e71, -⟩ := idx_facts t
  refine funext fun a => Fin.ext ?_
  match a with
  | ⟨0, _⟩ => show win1_7.index t (0 : Fin 2) * 2000 + 1 * p.val = t.val * 2000 + p.val; omega
  | ⟨1, _⟩ => show win1_7.index t (1 : Fin 2) * 128 + 1 * q.val = q.val; omega

/-! ## What each point writes back -/

/-- Point `t` writes back, to the first output, block `t` of the tanh stage. -/
theorem flushed6_eq (c : Dev nD) (t : Fin cfg1.N) :
    (dat1 (F := Ideal) V c).flushed 6 t
      = ((cfg1.win 6).blk t).view.read (Elt Ideal) (ofEntries (actAt (V c main_v13) (V c main_arg10))) := by
  show (cfg1.win 6).cut (grid1.coords t) ((dat1 (F := Ideal) V c).after 6 t) = _
  rw [after1_6]
  unfold out1_6
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = ofEntries (actAt (V c main_v13) (V c main_arg10)) (((cfg1.win 6).blk t).view.emb (ix2 p q))
  rw [emb6, ofEntries_ix2, pay1_apply, in0, in1]
  rfl

/-- Point `t` writes back, to the second output, block `t` of the normalised tanh stage. -/
theorem flushed7_eq (c : Dev nD) (t : Fin cfg1.N) :
    (dat1 (F := Ideal) V c).flushed 7 t
      = ((cfg1.win 7).blk t).view.read (Elt Ideal)
          (ofEntries (normAt (ofEntries (actAt (V c main_v13) (V c main_arg10))) (V c main_arg11) (V c main_arg12) (V c main_arg13) (V c main_arg14))) := by
  show (cfg1.win 7).cut (grid1.coords t) ((dat1 (F := Ideal) V c).after 7 t) = _
  rw [after1_7]
  unfold out1_7
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 j⟩
  show k1_pay2 (F := Ideal) (iblk1 V c 0 t) (iblk1 V c 1 t) (iblk1 V c 4 t) (iblk1 V c 5 t) (iblk1 V c 2 t) (iblk1 V c 3 t) (ix2 p q)
    = ofEntries (normAt (ofEntries (actAt (V c main_v13) (V c main_arg10))) (V c main_arg11) (V c main_arg12) (V c main_arg13) (V c main_arg14))
        (((cfg1.win 7).blk t).view.emb (ix2 p q))
  rw [emb7, ofEntries_ix2, pay2_apply, in0, in1, in2, in3, in4, in5]
  rfl

/-! ## The blocks tile the arrays -/

theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v14_0).slice (win1_6.rect t)).set ↔ _
  rw [View.set_slice_whole, Rect.mem_set_unit]
  exact Iff.rfl

theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v14_1).slice (win1_7.rect t)).set ↔ _
  rw [View.set_slice_whole, Rect.mem_set_unit]
  exact Iff.rfl

/-- Row `r` lies in the block of point `r / 2000`, and 25 · 2000 = 50000: every entry is written. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, e60, e61, -⟩ := idx_facts t
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, e70, e71, -⟩ := idx_facts t
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-! ## The arrays after the region -/

/-- After the second kernel region its first output array holds tanh of the neighbourhood sum plus the bias. -/
theorem final1_act (c : Dev nD) :
    (dat1 (F := Ideal) V c).arrAt 6 cfg1.N = ofEntries (actAt (V c main_v13) (V c main_arg10)) :=
  (dat1 (F := Ideal) V c).arrAt_eq_of_cover 6 _ (fun t _ => flushed6_eq V c t) cover6

/-- … and its second output array the normalisation of that. -/
theorem final1_norm (c : Dev nD) :
    (dat1 (F := Ideal) V c).arrAt 7 cfg1.N
      = ofEntries (normAt (ofEntries (actAt (V c main_v13) (V c main_arg10))) (V c main_arg11) (V c main_arg12) (V c main_arg13) (V c main_arg14)) :=
  (dat1 (F := Ideal) V c).arrAt_eq_of_cover 7 _ (fun t _ => flushed7_eq V c t) cover7

end Cert.KernelIdeal.Region1

end
-- ==== Proof.Region2.lean ====
import proofs.«129878_j77163382440873_1_alg».proof.Proof.Gen.KernelIdeal.Frame
import proofs.«129878_j77163382440873_1_alg».proof.Proof.Spec
import proofs.«129878_j77163382440873_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec
open scoped BigOperators

/-- A column of 2000 entries spread over 128 lanes reads, at (p, q), the column's entry p. -/
theorem bcast_col {α : Type} (x : S2000x1.Idx → α) (h : S2000x1.Broadcasts S2000x128) (p : Fin 2000) (q : Fin 128) :
    broadcastTo S2000x128 x h (ix2 p q) = x (ix2 p (0 : Fin 1)) := by
  refine broadcastTo_apply x h (ix2 p q) (ix2 p (0 : Fin 1)) fun a => ?_
  match a with
  | ⟨0, _⟩ => rfl
  | ⟨1, _⟩ => rfl

/-- The printed contraction record is the plain one: rows by columns, no batch axis. -/
theorem dot_plain : dot_S2000x128_S128x128_S2000x128_1_0_0_1_n_n = DotDims.plain 2000 128 128 := rfl

/-- The payload read at an entry: the mixed row times the weight matrix's column, plus the bias. -/
theorem pay_apply (x0 : Vec Ideal S2000x128 .f32) (x2 : Vec Ideal S2000x1 .f32) (x7 : Vec Ideal S2000x128 .f32)
    (x11 : Vec Ideal S128x128 .f32) (x14 : Vec Ideal S128 .f32) (p : Fin 2000) (q : Fin 128) :
    k2_pay1 (F := Ideal) x0 x2 x7 x11 x14 (ix2 p q)
      = (∑ k : Fin 128, (x7 (ix2 p k) + x0 (ix2 p k) * (x2 (ix2 p (0 : Fin 1)) + oneF)) * x11 (ix2 k q)) + x14 (ix1 q) := by
  unfold k2_pay1
  rw [addf_apply, dot_plain]
  refine (congrArg₂ (· + ·) (PlainDot.matmul_zero_apply 2000 128 128 _ _ p q)
    ((broadcastTo_1b_ab_apply _ _ p q).trans (shapeCast_a_1a_apply x14 _ 0 q))).trans ?_
  refine congrArg (· + x14 (ix1 q)) (Finset.sum_congr rfl fun k _ => ?_)
  rw [truncf_apply, truncf_apply, addf_apply, mulf_apply, shapeCast_self, shapeCast_self, bcast_col, addf_apply,
    broadcast_apply]
  rfl

variable (V : (c : Dev nD) → (b : Ref sig .tc) → Buf (Elt Ideal) ((c : Thread nD τ).loc b))

/-- The zero offset of a rank-2 block, as a constant function. -/
theorem hz2 : (![0, 0] : Fin 2 → Nat) = fun _ => 0 := funext fun a => by fin_cases a <;> rfl
/-- The zero offset of a rank-1 block, as a constant function. -/
theorem hz1 : (![0] : Fin 1 → Nat) = fun _ => 0 := funext fun a => by fin_cases a <;> rfl

/-- The printed index maps, decided over the 25 grid points: the three row-blocked inputs move with the output's
    row block, every column block index is 0, and the weight matrix and the bias are read whole. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 24 :=
  (by decide +kernel : ∀ t : Fin grid2.N, _)

/-- Every one of the 25 row blocks is some point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-- What grid point t writes back is block t of the mixed and projected rows: the payload at entry (p, q) of the
    block is the stated formula over the loaded blocks, and each loaded block is its array read at row
    (block index) × 2000 + p, the row the output's block holds there. -/
theorem flushed_eq (c : Dev nD) (t : Fin cfg2.N) :
    (dat2 (F := Ideal) V c).flushed 5 t = ((cfg2.win 5).blk t).view.read (Elt Ideal)
      (ofEntries (mixAt (V c main_v37) (V c main_v14_1) (V c main_arg16) (V c main_arg17) (V c main_arg18))) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S2000x1) hz2,
    View.ld_unit_zero (S := S128x128) hz2, View.ld_unit_zero (S := S128) hz1]
  obtain ⟨e0, e1, e2, e3, e4, e5, e6, e7, e8, e9, e10⟩ := idx_facts t
  refine funext fun (j : S2000x128.Idx) => ?_
  obtain ⟨p, q, rfl⟩ : ∃ (p : Fin 2000) (q : Fin 128), j = ix2 p q := ⟨j 0, j 1, eq_ix2 j⟩

  show k2_pay1 (F := Ideal) (iblk2 V c 1 t) (iblk2 V c 2 t) (iblk2 V c 0 t) (iblk2 V c 3 t) (iblk2 V c 4 t) (ix2 p q)
    = mixAt (V c main_v37) (V c main_v14_1) (V c main_arg16) (V c main_arg17) (V c main_arg18)
        ((((cfg2.win 5).blk t).view.emb (ix2 p q)) 0) ((((cfg2.win 5).blk t).view.emb (ix2 p q)) 1)
  rw [pay_apply]
  have hq : (((cfg2.win 5).blk t).view.emb (ix2 p q)) 1 = q :=
    Fin.ext (by show win2_5.index t (1 : Fin 2) * 128 + 1 * q.val = q.val; omega)
  rw [hq]
  unfold mixAt
  have h0 : ∀ k : Fin 128, iblk2 V c 0 t (ix2 p k)
      = V c main_v37 (ix2 ((((cfg2.win 5).blk t).view.emb (ix2 p q)) 0) k) := fun k => by
    show V c main_v37 (((cfg2.win 0).blk t).view.emb (ix2 p k)) = _
    refine congrArg _ (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  have h1 : ∀ k : Fin 128, iblk2 V c 1 t (ix2 p k)
      = V c main_v14_1 (ix2 ((((cfg2.win 5).blk t).view.emb (ix2 p q)) 0) k) := fun k => by
    show V c main_v14_1 (((cfg2.win 1).blk t).view.emb (ix2 p k)) = _
    refine congrArg _ (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  have h2 : iblk2 V c 2 t (ix2 p (0 : Fin 1))
      = V c main_arg16 (ix2 ((((cfg2.win 5).blk t).view.emb (ix2 p q)) 0) (0 : Fin 1)) := by
    show V c main_arg16 (((cfg2.win 2).blk t).view.emb (ix2 p (0 : Fin 1))) = _
    refine congrArg _ (funext fun a => Fin.ext ?_)
    match a with
    | ⟨0, _⟩ => show win2_2.index t (0 : Fin 2) * 2000 + 1 * p.val = win2_5.index t (0 : Fin 2) * 2000 + 1 * p.val; omega
    | ⟨1, _⟩ => show win2_2.index t (1 : Fin 2) * 1 + 1 * 0 = 0; omega
  have h3 : ∀ k : Fin 128, iblk2 V c 3 t (ix2 k q) = V c main_arg17 (ix2 k q) := fun k => by
    show V c main_arg17 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have h4 : iblk2 V c 4 t (ix1 q) = V c main_arg18 (ix1 q) := by
    show V c main_arg18 (((cfg2.win 4).blk t).view.emb (ix1 q)) = _
    refine congrArg _ (funext fun a => Fin.ext ?_)
    match a with
    | ⟨0, _⟩ => show win2_4.index t (0 : Fin 1) * 128 + 1 * q.val = q.val; omega
  simp only [h0, h1, h2, h3, h4]

/-- An index of the array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v38).slice (win2_5.rect t)).set ↔ _
  rw [View.set_slice_whole, Rect.mem_set_unit]
  exact Iff.rfl

/-- The 25 row blocks of 2000 rows fill the 50000 rows: row r lies in block r / 2000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- After the third kernel region its output array holds the mixed and projected rows. -/
theorem final2 (c : Dev nD) :
    (dat2 (F := Ideal) V c).arrAt 5 cfg2.N
      = ofEntries (mixAt (V c main_v37) (V c main_v14_1) (V c main_arg16) (V c main_arg17) (V c main_arg18)) :=
  (dat2 V c).arrAt_eq_of_cover 5 _ (fun t _ => flushed_eq V c t) cover

end Cert.KernelIdeal.Region2

end
-- ==== Proof.Region3.lean ====
import proofs.«129878_j77163382440873_1_alg».proof.Proof.Gen.KernelIdeal.Frame
import proofs.«129878_j77163382440873_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-- A length-a vector cast to an a×1 column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a 2000×128 block read at row p is the sum over the row. -/
theorem rowSum_apply (src : FVec Ideal S2000x128 .f32) (p : Fin 2000) :
    multiReduction (F := Ideal) .add [1] S2000 src 0x00000000#32 reduces_S2000x128_S2000 (.inl rfl) rfl (ix1 p)
      = ∑ k : Fin 128, src (ix2 p k) :=
  (Ideal.multiReduction_add_single src _ reduces_S2000x128_S2000 (.inl rfl) rfl (ix1 p)).trans
    (Finset.sum_congr rfl fun k _ => congrArg src (by funext a; match a with | ⟨0, _⟩ => rfl | ⟨1, _⟩ => rfl))

/-- The lane sum as a 2000×1 column, floored and inverse-square-rooted, read at row p. -/
theorem colScale_apply (src : FVec Ideal S2000x128 .f32) (p : Fin 2000) (u : Fin 1) :
    rsqrt (F := Ideal) (maximumf (shapeCast S2000x1
        (multiReduction (F := Ideal) .add [1] S2000 src 0x00000000#32 reduces_S2000x128_S2000 (.inl rfl) rfl) shapeCasts_S2000_S2000x1)
        (broadcast S2000x1 (Scalar.ofBits (F := Ideal) .f32 0x2B8CBCCC#32))) (ix2 p u)
      = Ideal.rsqrt (max (∑ k : Fin 128, src (ix2 p k)) epsUnit) := by
  show Ideal.rsqrt (max (shapeCast S2000x1 _ shapeCasts_S2000_S2000x1 (ix2 p u)) epsUnit) = _
  rw [shapeCast_a_a1_apply, rowSum_apply]

/-- The factor that scales row p of a block to unit length. -/
def bScale (a : Vec Ideal S2000x128 .f32) (p : Fin 2000) : EReal :=
  Ideal.rsqrt (max (∑ k : Fin 128, a (ix2 p k) * a (ix2 p k)) epsUnit)

/-- One entry of a block with its row scaled to unit length. -/
def bUnit (a : Vec Ideal S2000x128 .f32) (p : Fin 2000) (q : Fin 128) : EReal := a (ix2 p q) * bScale a p

theorem pay4_apply (x : Vec Ideal S2000x128 .f32) (p : Fin 2000) (q : Fin 128) :
    k3_pay4 (F := Ideal) x (ix2 p q) = bUnit x p q := by
  unfold k3_pay4
  simp only [mulf_apply]
  rw [broadcastTo_a1_ab_apply, colScale_apply]
  rfl

theorem pay5_apply (x : Vec Ideal S2000x128 .f32) (p : Fin 2000) (q : Fin 128) :
    k3_pay5 (F := Ideal) x (ix2 p q) = bUnit x p q := by
  unfold k3_pay5
  simp only [shapeCast_self, mulf_apply]
  rw [broadcastTo_a1_ab_apply, colScale_apply]
  rfl

theorem pay6_apply (x : Vec Ideal S2000x128 .f32) (p : Fin 2000) (q : Fin 128) :
    k3_pay6 (F := Ideal) x (ix2 p q) = bUnit x p q := by
  unfold k3_pay6
  simp only [shapeCast_self, mulf_apply]
  rw [broadcastTo_a1_ab_apply, colScale_apply]
  rfl

/-- The squared length of the three unit-scaled block rows laid side by side, summed part by part. -/
def bTotal (x0 x1 x2 : Vec Ideal S2000x128 .f32) (p : Fin 2000) : EReal :=
  ((∑ k : Fin 128, bUnit x0 p k * bUnit x0 p k) + (∑ k : Fin 128, bUnit x1 p k * bUnit x1 p k))
    + (∑ k : Fin 128, bUnit x2 p k * bUnit x2 p k)

/-- The factor that scales the joined block row to unit length. -/
def bJoinScale (x0 x1 x2 : Vec Ideal S2000x128 .f32) (p : Fin 2000) : EReal :=
  Ideal.rsqrt (max (bTotal x0 x1 x2 p) epsUnit)

theorem pay7_apply (x0 x1 x2 : Vec Ideal S2000x128 .f32) (p : Fin 2000) (u : Fin 1) :
    k3_pay7 (F := Ideal) x0 x1 x2 (ix2 p u) = bJoinScale x0 x1 x2 p := by
  unfold k3_pay7
  show Ideal.rsqrt (max ((shapeCast S2000x1 _ shapeCasts_S2000_S2000x1 (ix2 p u)
      + shapeCast S2000x1 _ shapeCasts_S2000_S2000x1 (ix2 p u))
      + shapeCast S2000x1 _ shapeCasts_S2000_S2000x1 (ix2 p u)) epsUnit) = _
  rw [shapeCast_a_a1_apply, shapeCast_a_a1_apply, shapeCast_a_a1_apply, rowSum_apply, rowSum_apply, rowSum_apply]
  simp only [mulf_apply, pay4_apply, pay5_apply, pay6_apply]
  rfl

theorem pay1_apply (v : FVec Ideal S2000x128 .f32) (s : FVec Ideal S2000x1 .f32) (p : Fin 2000) (q : Fin 128) :
    k3_pay1 (F := Ideal) v s (ix2 p q) = v (ix2 p q) * s (ix2 p (0 : Fin 1)) := by
  unfold k3_pay1
  simp only [mulf_apply]
  rw [broadcastTo_a1_ab_apply]

theorem pay2_apply (v : FVec Ideal S2000x128 .f32) (s : FVec Ideal S2000x1 .f32) (p : Fin 2000) (q : Fin 128) :
    k3_pay2 (F := Ideal) v s (ix2 p q) = v (ix2 p q) * s (ix2 p (0 : Fin 1)) := by
  unfold k3_pay2
  simp only [mulf_apply]
  rw [broadcastTo_a1_ab_apply]

theorem pay3_apply (v : FVec Ideal S2000x128 .f32) (s : FVec Ideal S2000x1 .f32) (p : Fin 2000) (q : Fin 128) :
    k3_pay3 (F := Ideal) v s (ix2 p q) = v (ix2 p q) * s (ix2 p (0 : Fin 1)) := by
  unfold k3_pay3
  simp only [mulf_apply]
  rw [broadcastTo_a1_ab_apply]

/-- One entry of the three unit-scaled block rows laid side by side. -/
def bJoin (x0 x1 x2 : Vec Ideal S2000x128 .f32) (p : Fin 2000) (j : Fin 384) : EReal :=
  if h : j.val < 128 then bUnit x0 p ⟨j.val, h⟩
  else if h' : j.val < 256 then bUnit x1 p ⟨j.val - 128, by omega⟩
  else bUnit x2 p ⟨j.val - 256, by omega⟩

/-- One entry of the joined block row scaled to unit length. -/
def bOut (x0 x1 x2 : Vec Ideal S2000x128 .f32) (p : Fin 2000) (j : Fin 384) : EReal :=
  bJoin x0 x1 x2 p j * bJoinScale x0 x1 x2 p

/-- The joined, scaled block as one function of its index. -/
def bOutF (x0 x1 x2 : Vec Ideal S2000x128 .f32) : S2000x384.Idx → Elt Ideal .f32 := fun y => bOut x0 x1 x2 (y 0) (y 1)

theorem hz : (![0, 0] : Fin 2 → Nat) = fun _ => 0 := funext fun a => by fin_cases a <;> rfl

theorem bJoin_lo (x0 x1 x2 : Vec Ideal S2000x128 .f32) (p : Fin 2000) (q : Fin 128) (j : Fin 384) (hj : j.val = 0 + 1 * q.val) :
    bJoin x0 x1 x2 p j = bUnit x0 p q := by
  unfold bJoin
  have h : j.val < 128 := by have := q.isLt; omega
  rw [dif_pos h]
  exact congrArg (bUnit x0 p) (Fin.ext (by show j.val = q.val; omega))

theorem bJoin_mid (x0 x1 x2 : Vec Ideal S2000x128 .f32) (p : Fin 2000) (q : Fin 128) (j : Fin 384) (hj : j.val = 128 + 1 * q.val) :
    bJoin x0 x1 x2 p j = bUnit x1 p q := by
  unfold bJoin
  have h : ¬ j.val < 128 := by omega
  have h' : j.val < 256 := by have := q.isLt; omega
  rw [dif_neg h, dif_pos h']
  exact congrArg (bUnit x1 p) (Fin.ext (by show j.val - 128 = q.val; omega))

theorem bJoin_hi (x0 x1 x2 : Vec Ideal S2000x128 .f32) (p : Fin 2000) (q : Fin 128) (j : Fin 384) (hj : j.val = 256 + 1 * q.val) :
    bJoin x0 x1 x2 p j = bUnit x2 p q := by
  unfold bJoin
  have h : ¬ j.val < 128 := by omega
  have h' : ¬ j.val < 256 := by omega
  rw [dif_neg h, dif_neg h']
  exact congrArg (bUnit x2 p) (Fin.ext (by show j.val - 256 = q.val; omega))

theorem row_emb {off : Fin 2 → Nat} (h0 : off 0 = 0) (inb : ∀ a, off a + S2000x128.size a ≤ S2000x384.size a)
    (p : Fin 2000) (q : Fin 128) : (Rect.unit (s := S2000x384) off S2000x128.size inb).emb (ix2 p q) 0 = p :=
  Fin.ext (by show off 0 + 1 * p.val = p.val; omega)

theorem piece1 (x0 x1 x2 : Vec Ideal S2000x128 .f32) (p : Fin 2000) (q : Fin 128) :
    k3_pay1 (F := Ideal) (k3_pay4 x0) (k3_pay7 x0 x1 x2) (ix2 p q) = bOutF x0 x1 x2 (r3_1.emb (ix2 p q)) := by
  rw [pay1_apply, pay4_apply, pay7_apply]
  show _ = bJoin x0 x1 x2 (r3_1.emb (ix2 p q) 0) (r3_1.emb (ix2 p q) 1) * bJoinScale x0 x1 x2 (r3_1.emb (ix2 p q) 0)
  rw [row_emb rfl]
  exact congrArg (fun z => z * bJoinScale x0 x1 x2 p) (bJoin_lo x0 x1 x2 p q _ rfl).symm

theorem piece2 (x0 x1 x2 : Vec Ideal S2000x128 .f32) (p : Fin 2000) (q : Fin 128) :
    k3_pay2 (F := Ideal) (k3_pay5 x1) (k3_pay7 x0 x1 x2) (ix2 p q) = bOutF x0 x1 x2 (r3_2.emb (ix2 p q)) := by
  rw [pay2_apply, pay5_apply, pay7_apply]
  show _ = bJoin x0 x1 x2 (r3_2.emb (ix2 p q) 0) (r3_2.emb (ix2 p q) 1) * bJoinScale x0 x1 x2 (r3_2.emb (ix2 p q) 0)
  rw [row_emb rfl]
  exact congrArg (fun z => z * bJoinScale x0 x1 x2 p) (bJoin_mid x0 x1 x2 p q _ rfl).symm

theorem piece3 (x0 x1 x2 : Vec Ideal S2000x128 .f32) (p : Fin 2000) (q : Fin 128) :
    k3_pay3 (F := Ideal) (k3_pay6 x2) (k3_pay7 x0 x1 x2) (ix2 p q) = bOutF x0 x1 x2 (r3_3.emb (ix2 p q)) := by
  rw [pay3_apply, pay6_apply, pay7_apply]
  show _ = bJoin x0 x1 x2 (r3_3.emb (ix2 p q) 0) (r3_3.emb (ix2 p q) 1) * bJoinScale x0 x1 x2 (r3_3.emb (ix2 p q) 0)
  rw [row_emb rfl]
  exact congrArg (fun z => z * bJoinScale x0 x1 x2 p) (bJoin_hi x0 x1 x2 p q _ rfl).symm

theorem out3_apply (x0 x1 x2 : Vec Ideal S2000x128 .f32) (y : S2000x384.Idx) :
    out3_3 (F := Ideal) x0 x1 x2 y = bOut x0 x1 x2 (y 0) (y 1) := by
  unfold out3_3
  simp only [View.ld_unit_zero (S := S2000x128) hz]
  refine View.canon_apply_of_pieces (Val := Elt Ideal) (bOutF x0 x1 x2) _ ?_ y (cover3_3 _ _ _ y)
  intro pc hpc x
  simp only [List.mem_cons, List.mem_nil_iff, or_false] at hpc
  rcases hpc with rfl | rfl | rfl
  · obtain ⟨p, q, rfl⟩ : ∃ (p : Fin 2000) (q : Fin 128), x = ix2 p q := ⟨x 0, x 1, eq_ix2 x⟩
    exact piece3 x0 x1 x2 p q
  · obtain ⟨p, q, rfl⟩ : ∃ (p : Fin 2000) (q : Fin 128), x = ix2 p q := ⟨x 0, x 1, eq_ix2 x⟩
    exact piece2 x0 x1 x2 p q
  · obtain ⟨p, q, rfl⟩ : ∃ (p : Fin 2000) (q : Fin 128), x = ix2 p q := ⟨x 0, x 1, eq_ix2 x⟩
    exact piece1 x0 x1 x2 p q

theorem bScale_eq (a : Vec Ideal S2000x128 .f32) (A : Mat 50000 128) (p : Fin 2000) (r : Fin 50000)
    (h : ∀ k : Fin 128, a (ix2 p k) = A (ix2 r k)) : bScale a p = unitScale A r := by
  unfold bScale unitScale
  simp only [h]

theorem bUnit_eq (a : Vec Ideal S2000x128 .f32) (A : Mat 50000 128) (p : Fin 2000) (r : Fin 50000)
    (h : ∀ k : Fin 128, a (ix2 p k) = A (ix2 r k)) (q : Fin 128) : bUnit a p q = unitAt A r q := by
  unfold bUnit unitAt
  rw [h, bScale_eq a A p r h]

/-- A block row that is row r of the arrays gives row r of the result. -/
theorem bOut_eq (x0 x1 x2 : Vec Ideal S2000x128 .f32) (X Y1 Y2 : Mat 50000 128) (p : Fin 2000) (r : Fin 50000)
    (h0 : ∀ k : Fin 128, x0 (ix2 p k) = X (ix2 r k)) (h1 : ∀ k : Fin 128, x1 (ix2 p k) = Y1 (ix2 r k))
    (h2 : ∀ k : Fin 128, x2 (ix2 p k) = Y2 (ix2 r k)) (j : Fin 384) :
    bOut x0 x1 x2 p j = outAt X Y1 Y2 r j := by
  unfold bOut outAt bJoinScale joinScale bTotal totalSq bJoin joinAt
  simp only [bUnit_eq x0 X p r h0, bUnit_eq x1 Y1 p r h1, bUnit_eq x2 Y2 p r h2]

/-- The printed index maps, decided over the grid: every window's block row index is the output's, every block column
    index is zero, and the output's block row index is below 25. -/
theorem idx_facts3 : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = win3_3.index t (0 : Fin 2)
    ∧ win3_2.index t (1 : Fin 2) = 0
    ∧ win3_3.index t (1 : Fin 2) = 0
    ∧ win3_3.index t (0 : Fin 2) ≤ 24 :=
  (by decide +kernel : ∀ t : Fin grid3.N, _)

/-- Every block row of the output is some point's. -/
theorem idx_onto3 : ∀ (q0 : Fin 25), ∃ t : Fin cfg3.N, win3_3.index t = ![q0.val, 0] :=
  (by decide +kernel : ∀ (q0 : Fin 25), ∃ t : Fin grid3.N, win3_3.index t = ![q0.val, 0])

theorem flushed3_eq (c : Dev nD) (t : Fin cfg3.N) :
    (dat3 (F := Ideal) V c).flushed 3 t
      = ((cfg3.win 3).blk t).view.read (Elt Ideal) (ofEntries (outAt (V c main_arg0) (V c main_v14_0) (V c main_v38))) := by
  show (cfg3.win 3).cut (grid3.coords t) ((dat3 V c).after 3 t) = _
  rw [after3_3]
  funext j
  show out3_3 (iblk3 V c 0 t) (iblk3 V c 1 t) (iblk3 V c 2 t) j
    = ofEntries (outAt (V c main_arg0) (V c main_v14_0) (V c main_v38)) (((cfg3.win 3).blk t).view.emb j)
  rw [out3_apply]
  obtain ⟨e0, e1, e2, e3, e4, e5, e6, e7⟩ := idx_facts3 t
  have hp : (j 0).val < 2000 := (j 0).isLt
  have hq : (j 1).val < 384 := (j 1).isLt
  have hr : win3_3.index t (0 : Fin 2) * 2000 + 1 * (j 0).val < 50000 := by omega
  have hc : win3_3.index t (1 : Fin 2) * 384 + 1 * (j 1).val < 384 := by omega
  have hemb : ((cfg3.win 3).blk t).view.emb j
      = ix2 (⟨win3_3.index t (0 : Fin 2) * 2000 + 1 * (j 0).val, hr⟩ : Fin 50000)
          (⟨win3_3.index t (1 : Fin 2) * 384 + 1 * (j 1).val, hc⟩ : Fin 384) := by
    funext a; apply Fin.ext
    match a with
    | ⟨0, _⟩ => rfl
    | ⟨1, _⟩ => rfl
  rw [hemb, ofEntries_ix2]
  have hj : (⟨win3_3.index t (1 : Fin 2) * 384 + 1 * (j 1).val, hc⟩ : Fin 384) = j 1 := Fin.ext (by show win3_3.index t (1 : Fin 2) * 384 + 1 * (j 1).val = (j 1).val; omega)
  rw [hj]
  refine bOut_eq _ _ _ _ _ _ (j 0) ⟨_, hr⟩ ?_ ?_ ?_ (j 1)
  · intro k
    show V c main_arg0 (((cfg3.win 0).blk t).view.emb (ix2 (j 0) k)) = V c main_arg0 (ix2 ⟨_, hr⟩ k)
    refine congrArg (V c main_arg0) (funext fun a => Fin.ext ?_)
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * k.val = k.val; omega
  · intro k
    show V c main_v14_0 (((cfg3.win 1).blk t).view.emb (ix2 (j 0) k)) = V c main_v14_0 (ix2 ⟨_, hr⟩ k)
    refine congrArg (V c main_v14_0) (funext fun a => Fin.ext ?_)
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 128 + 1 * k.val = k.val; omega
  · intro k
    show V c main_v38 (((cfg3.win 2).blk t).view.emb (ix2 (j 0) k)) = V c main_v38 (ix2 ⟨_, hr⟩ k)
    refine congrArg (V c main_v38) (funext fun a => Fin.ext ?_)
    match a with
    | ⟨0, _⟩ => show win3_2.index t (0 : Fin 2) * 2000 + 1 * (j 0).val = win3_3.index t (0 : Fin 2) * 2000 + 1 * (j 0).val; omega
    | ⟨1, _⟩ => show win3_2.index t (1 : Fin 2) * 128 + 1 * k.val = k.val; omega

/-- An index of the output array is in point t's block iff each coordinate is in the block's range on its axis. -/
theorem mem_blk3 (t : Fin cfg3.N) (i : S50000x384.Idx) :
    i ∈ ((cfg3.win 3).blk t).view.set ↔ ∀ a : Fin 2, win3_3.index t a * S2000x384.size a ≤ (i a).val ∧ (i a).val < win3_3.index t a * S2000x384.size a + S2000x384.size a := by
  show i ∈ ((View.whole main_v39).slice (win3_3.rect t)).set ↔ _
  rw [View.set_slice_whole, Rect.mem_set_unit]
  exact Iff.rfl

/-- Every index of the output array is in the block of the point whose block row is its row divided by 2000. -/
theorem cover3 (i : S50000x384.Idx) :
    ∃ t : Fin cfg3.N, (cfg3.win 3).flush t = true ∧ i ∈ ((cfg3.win 3).blk t).view.set := by
  have hi0 : (i 0).val < 50000 := (i 0).isLt
  have hi1 : (i 1).val < 384 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 384 ≤ (i 1).val ∧ (i 1).val < win3_3.index t (1 : Fin 2) * 384 + 384; omega

/-- After the last kernel region its output array holds the three unit-scaled rows side by side, scaled to unit length. -/
theorem final3 (c : Dev nD) :
    (dat3 (F := Ideal) V c).arrAt 3 cfg3.N = ofEntries (outAt (V c main_arg0) (V c main_v14_0) (V c main_v38)) :=
  (dat3 V c).arrAt_eq_of_cover 3 _ (fun t _ => flushed3_eq V c t) cover3

end Cert.KernelIdeal.Region3

end
-- ==== Proof.KernelFold.lean ====
/-
  The kernel program's result array as one function of its argument arrays.

  The program is four kernel regions with two stretches of host operations between them. Each region leaves its output
  array at a whole-array function of the arrays it reads (one module per region), each host stretch leaves a
  neighbourhood sum of the array before it, and every other array keeps the contents it had; walking the segment
  boundaries from the launch to the return composes these into `Cert.Chains.whole` of the nineteen arguments.
-/
import proofs.«129878_j77163382440873_1_alg».proof.Proof.Gen.KernelIdeal.Frame
import proofs.«129878_j77163382440873_1_alg».proof.Proof.Chains
import proofs.«129878_j77163382440873_1_alg».proof.Proof.Region0
import proofs.«129878_j77163382440873_1_alg».proof.Proof.Region1
import proofs.«129878_j77163382440873_1_alg».proof.Proof.Region2
import proofs.«129878_j77163382440873_1_alg».proof.Proof.Region3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Spec Cert.Chains

variable (m : (ℓ : Loc nD τ sig) → Buf (Elt Ideal) ℓ) (ρ : Dev nD → PrngReg)

/-- No operation of either host stretch writes the reference (decided reference by reference). -/
local macro "not_written" : tactic => `(tactic| (
  refine List.forall_iff_forall_mem.mp ?_
  simp only [hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Arrays nothing has written yet keep their launch contents -/

/-- After the first region, an array that is none of its windows' holds its launch contents. -/
theorem at1 (c : Dev nD) (b : Ref sig .tc) (h0 : ∀ w, Pipeline.arrRef spec0 w ≠ b) :
    W1 m ρ c (Proc.devRef .tc b) = m ((c : Thread nD τ).loc b) :=
  W1_of_ne m ρ c b h0

/-- … and after the first host stretch, if that stretch does not write it. -/
theorem at2 (c : Dev nD) (b : Ref sig .tc) (h0 : ∀ w, Pipeline.arrRef spec0 w ≠ b)
    (hw1 : ∀ op ∈ (hostOps1 : List (HloOp τ sig (Elt Ideal))), Proc.devRef .tc b ∉ op.writes) :
    W2 m ρ c (Proc.devRef .tc b) = m ((c : Thread nD τ).loc b) :=
  (StableHlo.after_of_forall_not_mem (b := Proc.devRef .tc b) _ _ hw1).trans (at1 m ρ c b h0)

/-- … and after the second region, if it is none of that region's windows' either. -/
theorem at3 (c : Dev nD) (b : Ref sig .tc) (h0 : ∀ w, Pipeline.arrRef spec0 w ≠ b)
    (hw1 : ∀ op ∈ (hostOps1 : List (HloOp τ sig (Elt Ideal))), Proc.devRef .tc b ∉ op.writes)
    (h1 : ∀ w, Pipeline.arrRef spec1 w ≠ b) :
    W3 m ρ c (Proc.devRef .tc b) = m ((c : Thread nD τ).loc b) :=
  (W3_of_ne m ρ c b h1).trans (at2 m ρ c b h0 hw1)

/-- … and after the second host stretch, if that stretch does not write it. -/
theorem at4 (c : Dev nD) (b : Ref sig .tc) (h0 : ∀ w, Pipeline.arrRef spec0 w ≠ b)
    (hw1 : ∀ op ∈ (hostOps1 : List (HloOp τ sig (Elt Ideal))), Proc.devRef .tc b ∉ op.writes)
    (h1 : ∀ w, Pipeline.arrRef spec1 w ≠ b)
    (hw2 : ∀ op ∈ (hostOps2 : List (HloOp τ sig (Elt Ideal))), Proc.devRef .tc b ∉ op.writes) :
    W4 m ρ c (Proc.devRef .tc b) = m ((c : Thread nD τ).loc b) :=
  (StableHlo.after_of_forall_not_mem (b := Proc.devRef .tc b) _ _ hw2).trans (at3 m ρ c b h0 hw1 h1)

/-! ## The first region and the first neighbourhood sum -/

/-- The first region's output: the normalised input times the first weight matrix. -/
theorem w1_v0 (c : Dev nD) :
    W1 m ρ c (Proc.devRef .tc main_v0) = ofEntries (projAt (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9))) :=
  (W1_arr m ρ c 6).trans (Cert.KernelIdeal.Region0.final0 (V0 m ρ) c)

/-- The first host stretch leaves the neighbourhood sum of that array. -/
theorem w2_v13 (c : Dev nD) :
    W2 m ρ c (Proc.devRef .tc main_v13)
      = aggOf (F := Ideal) (ofEntries (projAt (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)))) (m ((c : Thread nD τ).loc main_arg3)) (m ((c : Thread nD τ).loc main_arg1)) (m ((c : Thread nD τ).loc main_arg2)) := by
  have e : W2 m ρ c (Proc.devRef .tc main_v13)
      = aggOf (F := Ideal) (W1 m ρ c (Proc.devRef .tc main_v0)) (W1 m ρ c (Proc.devRef .tc main_arg3))
          (W1 m ρ c (Proc.devRef .tc main_arg1)) (W1 m ρ c (Proc.devRef .tc main_arg2)) := by
    show StableHlo.after hostOps1 (W1 m ρ c) (Proc.devRef .tc main_v13) = _
    after_results
    rfl
  rw [e, w1_v0 m ρ c, at1 m ρ c main_arg3 (by decide), at1 m ρ c main_arg1 (by decide), at1 m ρ c main_arg2 (by decide)]

/-! ## The second region -/

/-- The second region's first output: the first layer. -/
theorem w3_v14_0 (c : Dev nD) : W3 m ρ c (Proc.devRef .tc main_v14_0) = (layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W3_arr m ρ c 6).trans ((Cert.KernelIdeal.Region1.final1_act (V2 m ρ) c).trans ?_)
  show ofEntries (actAt (W2 m ρ c (Proc.devRef .tc main_v13)) (W2 m ρ c (Proc.devRef .tc main_arg10))) = _
  rw [w2_v13 m ρ c, at2 m ρ c main_arg10 (by decide) (by not_written)]
  rfl

/-- The second region's second output: the second layer's normalised input. -/
theorem w3_v14_1 (c : Dev nD) : W3 m ρ c (Proc.devRef .tc main_v14_1) = (hidden2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W3_arr m ρ c 7).trans ((Cert.KernelIdeal.Region1.final1_norm (V2 m ρ) c).trans ?_)
  show ofEntries (normAt (ofEntries (actAt (W2 m ρ c (Proc.devRef .tc main_v13)) (W2 m ρ c (Proc.devRef .tc main_arg10))))
    (W2 m ρ c (Proc.devRef .tc main_arg11)) (W2 m ρ c (Proc.devRef .tc main_arg12)) (W2 m ρ c (Proc.devRef .tc main_arg13))
    (W2 m ρ c (Proc.devRef .tc main_arg14))) = _
  rw [w2_v13 m ρ c, at2 m ρ c main_arg10 (by decide) (by not_written), at2 m ρ c main_arg11 (by decide) (by not_written),
    at2 m ρ c main_arg12 (by decide) (by not_written), at2 m ρ c main_arg13 (by decide) (by not_written),
    at2 m ρ c main_arg14 (by decide) (by not_written)]
  rfl

/-! ## The second neighbourhood sum and the third region -/

set_option maxHeartbeats 4000000 in
/-- The second host stretch leaves the neighbourhood sum of the second layer's normalised input, weighted by the
    relation-scaled edge values. -/
theorem w4_v37 (c : Dev nD) :
    W4 m ρ c (Proc.devRef .tc main_v37) = aggOf (F := Ideal) (hidden2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (evOf (F := Ideal) (m ((c : Thread nD τ).loc main_arg3)) (m ((c : Thread nD τ).loc main_arg4)) (m ((c : Thread nD τ).loc main_arg15))) (m ((c : Thread nD τ).loc main_arg1)) (m ((c : Thread nD τ).loc main_arg2)) := by
  have e : W4 m ρ c (Proc.devRef .tc main_v37)
      = aggOf (F := Ideal) (W3 m ρ c (Proc.devRef .tc main_v14_1))
          (evOf (F := Ideal) (W3 m ρ c (Proc.devRef .tc main_arg3)) (W3 m ρ c (Proc.devRef .tc main_arg4)) (W3 m ρ c (Proc.devRef .tc main_arg15)))
          (W3 m ρ c (Proc.devRef .tc main_arg1)) (W3 m ρ c (Proc.devRef .tc main_arg2)) := by
    show StableHlo.after hostOps2 (W3 m ρ c) (Proc.devRef .tc main_v37) = _
    after_results_simp <;> rfl
  rw [e, w3_v14_1 m ρ c, at3 m ρ c main_arg3 (by decide) (by not_written) (by decide),
    at3 m ρ c main_arg4 (by decide) (by not_written) (by decide), at3 m ρ c main_arg15 (by decide) (by not_written) (by decide),
    at3 m ρ c main_arg1 (by decide) (by not_written) (by decide), at3 m ρ c main_arg2 (by decide) (by not_written) (by decide)]

/-- The second layer's normalised input is still there when the third region is entered. -/
theorem w4_v14_1 (c : Dev nD) : W4 m ρ c (Proc.devRef .tc main_v14_1) = (hidden2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (StableHlo.after_of_forall_not_mem (b := Proc.devRef .tc main_v14_1) _ _ (by not_written)).trans (w3_v14_1 m ρ c)

/-- The third region's output: the second layer. -/
theorem w5_v38 (c : Dev nD) : W5 m ρ c (Proc.devRef .tc main_v38) = (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  refine (W5_arr m ρ c 5).trans ((Cert.KernelIdeal.Region2.final2 (V4 m ρ) c).trans ?_)
  show ofEntries (mixAt (W4 m ρ c (Proc.devRef .tc main_v37)) (W4 m ρ c (Proc.devRef .tc main_v14_1))
    (W4 m ρ c (Proc.devRef .tc main_arg16)) (W4 m ρ c (Proc.devRef .tc main_arg17)) (W4 m ρ c (Proc.devRef .tc main_arg18))) = _
  rw [w4_v37 m ρ c, w4_v14_1 m ρ c, at4 m ρ c main_arg16 (by decide) (by not_written) (by decide) (by not_written),
    at4 m ρ c main_arg17 (by decide) (by not_written) (by decide) (by not_written),
    at4 m ρ c main_arg18 (by decide) (by not_written) (by decide) (by not_written)]
  rfl

/-! ## The last region -/

/-- The first layer is still there when the last region is entered. -/
theorem w5_v14_0 (c : Dev nD) : W5 m ρ c (Proc.devRef .tc main_v14_0) = (layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W5_of_ne m ρ c main_v14_0 (by decide)).trans
    ((StableHlo.after_of_forall_not_mem (b := Proc.devRef .tc main_v14_0) _ _ (by not_written)).trans (w3_v14_0 m ρ c))

/-- The input array is as launched when the last region is entered: the first region only reads it. -/
theorem w5_arg0 (c : Dev nD) : W5 m ρ c (Proc.devRef .tc main_arg0) = (m ((c : Thread nD τ).loc main_arg0)) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (by not_written)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (by not_written)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- THE RESULT: the last region leaves the result array at `whole` of the argument arrays. -/
theorem result_eq (c : Dev nD) :
    W6 m ρ c (Proc.devRef .tc main_v39) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 3).trans ((Cert.KernelIdeal.Region3.final3 (V5 m ρ) c).trans ?_)
  show ofEntries (outAt (W5 m ρ c (Proc.devRef .tc main_arg0)) (W5 m ρ c (Proc.devRef .tc main_v14_0))
    (W5 m ρ c (Proc.devRef .tc main_v38))) = _
  rw [w5_arg0 m ρ c, w5_v14_0 m ρ c, w5_v38 m ρ c]
  rfl

end Cert.KernelIdeal.Fold

end
-- ==== Proof.RefStagesA.lean ====
import proofs.«129878_j77163382440873_1_alg».proof.Proof.Gen.ReferenceIdeal.Read
import proofs.«129878_j77163382440873_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.StagesA

open Idealize.ShloMosaic Idealize.ShloMosaic.TcCoe Idealize.ShloMosaic.ValueIdx
open Cert.ReferenceIdeal Cert.ReferenceIdeal.Gen Cert.ReferenceIdeal.Read Cert.Spec
open scoped BigOperators

/-- The normalised input at one entry. -/
private theorem v14_at (x0 : (⟨S50000x128, .f32⟩ : BufTy).Contents (Elt Ideal)) (x5 x6 x7 x8 : (⟨S128, .f32⟩ : BufTy).Contents (Elt Ideal)) (r : Fin 50000) (k : Fin 128) :
    val_main_v14 (F := Ideal) x0 x5 x6 x7 x8 (ix2 r k) = normAt x0 x5 x6 x7 x8 r k := by
  have e0 : idx_main_v0 (idx_main_v1 (ix2 r k)) = ix1 k := funext fun a => Fin.ext (by match a with | ⟨0, _⟩ => rfl)
  have e6 : idx_main_v6 (idx_main_v7 (ix2 r k)) = ix1 k := funext fun a => Fin.ext (by match a with | ⟨0, _⟩ => rfl)
  have e9 : idx_main_v9 (idx_main_v10 (ix2 r k)) = ix1 k := funext fun a => Fin.ext (by match a with | ⟨0, _⟩ => rfl)
  have e12 : idx_main_v12 (idx_main_v13 (ix2 r k)) = ix1 k := funext fun a => Fin.ext (by match a with | ⟨0, _⟩ => rfl)
  rw [val_main_v14_apply, val_main_v11_apply, val_main_v8_apply, val_main_v2_apply, val_main_v1_apply,
    val_main_v0_apply, e0, val_main_v7_apply, val_main_v6_apply, e6, val_main_v5_apply, val_main_v4_apply,
    val_main_v3_apply, val_main_cst_apply, val_main_v10_apply, val_main_v9_apply, e9, val_main_v13_apply,
    val_main_v12_apply, e12]
  rfl

/-- The reference's first dense stage is the normalised input times the first weight matrix, entry by entry. -/
theorem ref_proj (x0 : (⟨S50000x128, .f32⟩ : BufTy).Contents (Elt Ideal)) (x5 x6 x7 x8 : (⟨S128, .f32⟩ : BufTy).Contents (Elt Ideal)) (x9 : (⟨S128x128, .f32⟩ : BufTy).Contents (Elt Ideal)) :
    val_main_v15 (F := Ideal) x0 x5 x6 x7 x8 x9 = ofEntries (projAt x0 x5 x6 x7 x8 x9) := by
  funext i
  obtain ⟨r, j, rfl⟩ : ∃ (r : Fin 50000) (j : Fin 128), i = ix2 r j := ⟨i 0, i 1, eq_ix2 i⟩
  rw [val_main_v15_apply, ofEntries_ix2]
  unfold projAt
  refine Finset.sum_congr rfl fun k _ => ?_
  have el : lidx_main_v15 (ix2 r j) k = ix2 r k := funext fun a => Fin.ext (by match a with | ⟨0, _⟩ => rfl | ⟨1, _⟩ => rfl)
  have er : ridx_main_v15 (ix2 r j) k = ix2 k j := funext fun a => Fin.ext (by match a with | ⟨0, _⟩ => rfl | ⟨1, _⟩ => rfl)
  rw [el, er, v14_at]

/-- The reference's first layer output is tanh of its first neighbourhood sum plus the bias. -/
theorem ref_act (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v32 (F := Ideal) x0 x1 x2 x3 x5 x6 x7 x8 x9 x10 = ofEntries (actAt (val_main_v28 (F := Ideal) x0 x1 x2 x3 x5 x6 x7 x8 x9) x10) := by
  funext i
  obtain ⟨r, j, rfl⟩ : ∃ (r : Fin 50000) (j : Fin 128), i = ix2 r j := ⟨i 0, i 1, eq_ix2 i⟩
  have e29 : idx_main_v29 (idx_main_v30 (ix2 r j)) = ix1 j := funext fun a => Fin.ext (by match a with | ⟨0, _⟩ => rfl)
  rw [val_main_v32_apply, val_main_v31_apply, val_main_v30_apply, val_main_v29_apply, e29, ofEntries_ix2]
  simp only [actAt, Ideal.hostUnary_tanh_def, Ideal.addf_def]

/-- The reference's second normalisation, of its first layer output. -/
theorem ref_norm (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) :
    val_main_v47 (F := Ideal) x0 x1 x2 x3 x5 x6 x7 x8 x9 x10 x11 x12 x13 x14 = ofEntries (normAt (val_main_v32 (F := Ideal) x0 x1 x2 x3 x5 x6 x7 x8 x9 x10) x11 x12 x13 x14) := by
  funext i
  obtain ⟨r, k, rfl⟩ : ∃ (r : Fin 50000) (k : Fin 128), i = ix2 r k := ⟨i 0, i 1, eq_ix2 i⟩
  have e33 : idx_main_v33 (idx_main_v34 (ix2 r k)) = ix1 k := funext fun a => Fin.ext (by match a with | ⟨0, _⟩ => rfl)
  have e39 : idx_main_v39 (idx_main_v40 (ix2 r k)) = ix1 k := funext fun a => Fin.ext (by match a with | ⟨0, _⟩ => rfl)
  have e42 : idx_main_v42 (idx_main_v43 (ix2 r k)) = ix1 k := funext fun a => Fin.ext (by match a with | ⟨0, _⟩ => rfl)
  have e45 : idx_main_v45 (idx_main_v46 (ix2 r k)) = ix1 k := funext fun a => Fin.ext (by match a with | ⟨0, _⟩ => rfl)
  rw [val_main_v47_apply, val_main_v44_apply, val_main_v41_apply, val_main_v35_apply, val_main_v34_apply,
    val_main_v33_apply, e33, val_main_v40_apply, val_main_v39_apply, e39, val_main_v38_apply, val_main_v37_apply,
    val_main_v36_apply, val_main_cst_2_apply, val_main_v43_apply, val_main_v42_apply, e42, val_main_v46_apply,
    val_main_v45_apply, e45, ofEntries_ix2]
  rfl

/-- The reference's second layer output: its second neighbourhood sum mixed with the node's own row, projected, plus the bias. -/
theorem ref_mix (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v79 (F := Ideal) x0 x1 x2 x3 x4 x5 x6 x7 x8 x9 x10 x11 x12 x13 x14 x15 x16 x17 x18
      = ofEntries (mixAt (val_main_v70 (F := Ideal) x0 x1 x2 x3 x4 x5 x6 x7 x8 x9 x10 x11 x12 x13 x14 x15) (val_main_v47 (F := Ideal) x0 x1 x2 x3 x5 x6 x7 x8 x9 x10 x11 x12 x13 x14) x16 x17 x18) := by
  funext i
  obtain ⟨r, j, rfl⟩ : ∃ (r : Fin 50000) (j : Fin 128), i = ix2 r j := ⟨i 0, i 1, eq_ix2 i⟩
  have e77 : idx_main_v77 (idx_main_v78 (ix2 r j)) = ix1 j := funext fun a => Fin.ext (by match a with | ⟨0, _⟩ => rfl)
  rw [val_main_v79_apply, val_main_v76_apply, val_main_v78_apply, val_main_v77_apply, e77, ofEntries_ix2]
  unfold mixAt
  rw [Ideal.addf_def]
  refine congrArg₂ (· + ·) (Finset.sum_congr rfl fun k _ => ?_) rfl
  have el : lidx_main_v76 (ix2 r j) k = ix2 r k := funext fun a => Fin.ext (by match a with | ⟨0, _⟩ => rfl | ⟨1, _⟩ => rfl)
  have er : ridx_main_v76 (ix2 r j) k = ix2 k j := funext fun a => Fin.ext (by match a with | ⟨0, _⟩ => rfl | ⟨1, _⟩ => rfl)
  have e73 : idx_main_v73 (ix2 r k) = ix2 r 0 := funext fun a => Fin.ext (by match a with | ⟨0, _⟩ => rfl | ⟨1, _⟩ => rfl)
  rw [el, er, val_main_v75_apply, val_main_v74_apply, val_main_v73_apply, e73, val_main_v72_apply,
    val_main_v71_apply, val_main_cst_9_apply]
  simp only [oneF, Ideal.addf_def, Ideal.mulf_def, Ideal.ofBits_def]

end Cert.ReferenceIdeal.StagesA

end
-- ==== Proof.LibConcat3.lean ====
import proofs.«129878_j77163382440873_1_alg».proof.Proof.Gen.ReferenceIdeal
import Idealize.ShloMosaic.Lib.Pipeline.Value
import Idealize.ShloMosaic.Lib.ValueIdx

noncomputable section

namespace Cert.ReferenceIdeal.Concat3

open Idealize.ShloMosaic Idealize.ShloMosaic.TcCoe Idealize.ShloMosaic.ValueIdx
open Cert.ReferenceIdeal Cert.ReferenceIdeal.Gen

/-- Three [50000,128] arrays laid side by side along the column axis, read at an entry: columns 0–127 come from the
    first, 128–255 from the second, 256–383 from the third. -/
theorem concat3_apply (a b c : (⟨S50000x128, .f32⟩ : BufTy).Contents (Elt Ideal)) (r : Fin 50000) (j : Fin 384) :
    concatenate S50000x384 1 [⟨S50000x128, a⟩, ⟨S50000x128, b⟩, ⟨S50000x128, c⟩] concatenates_S50000x128_S50000x128_S50000x128_S50000x384_d1 (ix2 r j)
      = if h : j.val < 128 then a (ix2 r ⟨j.val, h⟩)
        else if h' : j.val < 256 then b (ix2 r ⟨j.val - 128, by omega⟩)
        else c (ix2 r ⟨j.val - 256, by omega⟩) := by
  by_cases h : j.val < 128
  · rw [dif_pos h]
    exact concatenate_apply_piece (1 : Fin S50000x384.rank) [⟨S50000x128, a⟩, ⟨S50000x128, b⟩, ⟨S50000x128, c⟩]
      concatenates_S50000x128_S50000x128_S50000x128_S50000x384_d1 (ix2 r j) 0 (show (0 : Nat) < 3 by decide) S50000x128 a rfl rfl 0 rfl
      (ix2 r ⟨j.val, h⟩) (fun b hb => by
        match b with
        | ⟨0, _⟩ => rfl
        | ⟨1, _⟩ => exact absurd rfl hb) (by show 0 + j.val = j.val; omega)
  · rw [dif_neg h]
    by_cases h' : j.val < 256
    · rw [dif_pos h']
      exact concatenate_apply_piece (1 : Fin S50000x384.rank) [⟨S50000x128, a⟩, ⟨S50000x128, b⟩, ⟨S50000x128, c⟩]
        concatenates_S50000x128_S50000x128_S50000x128_S50000x384_d1 (ix2 r j) 1 (show (1 : Nat) < 3 by decide) S50000x128 b rfl rfl 128 rfl
        (ix2 r ⟨j.val - 128, by omega⟩) (fun b hb => by
          match b with
          | ⟨0, _⟩ => rfl
          | ⟨1, _⟩ => exact absurd rfl hb) (by show 128 + (j.val - 128) = j.val; omega)
    · rw [dif_neg h']
      exact concatenate_apply_piece (1 : Fin S50000x384.rank) [⟨S50000x128, a⟩, ⟨S50000x128, b⟩, ⟨S50000x128, c⟩]
        concatenates_S50000x128_S50000x128_S50000x128_S50000x384_d1 (ix2 r j) 2 (show (2 : Nat) < 3 by decide) S50000x128 c rfl rfl 256 rfl
        (ix2 r ⟨j.val - 256, by omega⟩) (fun b hb => by
          match b with
          | ⟨0, _⟩ => rfl
          | ⟨1, _⟩ => exact absurd rfl hb) (by show 256 + (j.val - 256) = j.val; omega)

end Cert.ReferenceIdeal.Concat3

end
-- ==== Proof.RefStagesB.lean ====
import proofs.«129878_j77163382440873_1_alg».proof.Proof.Gen.ReferenceIdeal.Read
import proofs.«129878_j77163382440873_1_alg».proof.Proof.Spec
import proofs.«129878_j77163382440873_1_alg».proof.Proof.LibConcat3
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.StagesB

open Idealize.ShloMosaic Idealize.ShloMosaic.TcCoe Idealize.ShloMosaic.ValueIdx
open Cert.ReferenceIdeal Cert.ReferenceIdeal.Gen Cert.ReferenceIdeal.Read Cert.Spec
open scoped BigOperators

/-- The unit-length scaling read at one entry, for any array: the entry times the inverse square root of the floored
    sum of the row's squares, the sum's entries being reached through any enumeration `g` of the row. -/
theorem unit_core (a : (⟨S50000x128, .f32⟩ : BufTy).Contents (Elt Ideal)) (r : Fin 50000) (j : Fin 128)
    (g : Fin 128 → S50000x128.Idx) (hg : ∀ k : Fin 128, g k = ix2 r k) :
    FloatOps.mulf (F := Ideal) (φ := .f32) (a (ix2 r j))
      (FloatOps.hostUnary HostUnaryOp.rsqrt
        (FloatOps.maximumf (FloatOps.ofBits FTy.f32 0x00000000#32 + ∑ k : Fin 128, mulf a a (g k))
          (FloatOps.ofBits FTy.f32 0x2B8CBCCC#32))) = unitAt a r j := by
  simp only [hg, mulf_apply, unitAt, unitScale, epsUnit, Ideal.mulf_def, Ideal.maximumf_def,
    Ideal.hostUnary_rsqrt_def, Ideal.ofBits_def, Ideal.ofBits_zero_f32, zero_add]

/-- One entry of a part scaled to unit length; the part itself stays an unopened array. -/
theorem unit_x (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : Fin 50000) (j : Fin 128) :
    val_main_v87 (F := Ideal) x0 (ix2 r j) = unitAt (x0) r j := by
  have e2 : idx_main_v86 (ix2 r j) = ix2 r (0 : Fin 1) :=
    funext fun a => Fin.ext (by match a with | ⟨0, _⟩ => rfl | ⟨1, _⟩ => rfl)
  have e1 : idx_main_v82 (ix2 r (0 : Fin 1)) = ix1 r :=
    funext fun a => Fin.ext (by match a with | ⟨0, _⟩ => rfl)
  have es : ∀ k : Fin 128, idx_main_v81 (ix1 r) k = ix2 r k := fun k =>
    funext fun a => Fin.ext (by match a with | ⟨0, _⟩ => rfl | ⟨1, _⟩ => rfl)
  rw [val_main_v87_apply, val_main_v86_apply, val_main_v85_apply, val_main_v84_apply,
    val_main_v82_apply, val_main_v83_apply, val_main_cst_11_apply, e2, e1, val_main_v81_apply,
    val_main_cst_10_apply]
  unfold val_main_v80
  exact unit_core (x0) r j (idx_main_v81 (ix1 r)) es

/-- One entry of a part scaled to unit length; the part itself stays an unopened array. -/
theorem unit_y1 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : Fin 50000) (j : Fin 128) :
    val_main_v95 (F := Ideal) x0 x1 x2 x3 x5 x6 x7 x8 x9 x10 (ix2 r j) = unitAt (val_main_v32 (F := Ideal) x0 x1 x2 x3 x5 x6 x7 x8 x9 x10) r j := by
  have e2 : idx_main_v94 (ix2 r j) = ix2 r (0 : Fin 1) :=
    funext fun a => Fin.ext (by match a with | ⟨0, _⟩ => rfl | ⟨1, _⟩ => rfl)
  have e1 : idx_main_v90 (ix2 r (0 : Fin 1)) = ix1 r :=
    funext fun a => Fin.ext (by match a with | ⟨0, _⟩ => rfl)
  have es : ∀ k : Fin 128, idx_main_v89 (ix1 r) k = ix2 r k := fun k =>
    funext fun a => Fin.ext (by match a with | ⟨0, _⟩ => rfl | ⟨1, _⟩ => rfl)
  rw [val_main_v95_apply, val_main_v94_apply, val_main_v93_apply, val_main_v92_apply,
    val_main_v90_apply, val_main_v91_apply, val_main_cst_13_apply, e2, e1, val_main_v89_apply,
    val_main_cst_12_apply]
  unfold val_main_v88
  exact unit_core (val_main_v32 (F := Ideal) x0 x1 x2 x3 x5 x6 x7 x8 x9 x10) r j (idx_main_v89 (ix1 r)) es

/-- One entry of a part scaled to unit length; the part itself stays an unopened array. -/
theorem unit_y2 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : Fin 50000) (j : Fin 128) :
    val_main_v103 (F := Ideal) x0 x1 x2 x3 x4 x5 x6 x7 x8 x9 x10 x11 x12 x13 x14 x15 x16 x17 x18 (ix2 r j) = unitAt (val_main_v79 (F := Ideal) x0 x1 x2 x3 x4 x5 x6 x7 x8 x9 x10 x11 x12 x13 x14 x15 x16 x17 x18) r j := by
  have e2 : idx_main_v102 (ix2 r j) = ix2 r (0 : Fin 1) :=
    funext fun a => Fin.ext (by match a with | ⟨0, _⟩ => rfl | ⟨1, _⟩ => rfl)
  have e1 : idx_main_v98 (ix2 r (0 : Fin 1)) = ix1 r :=
    funext fun a => Fin.ext (by match a with | ⟨0, _⟩ => rfl)
  have es : ∀ k : Fin 128, idx_main_v97 (ix1 r) k = ix2 r k := fun k =>
    funext fun a => Fin.ext (by match a with | ⟨0, _⟩ => rfl | ⟨1, _⟩ => rfl)
  rw [val_main_v103_apply, val_main_v102_apply, val_main_v101_apply, val_main_v100_apply,
    val_main_v98_apply, val_main_v99_apply, val_main_cst_15_apply, e2, e1, val_main_v97_apply,
    val_main_cst_14_apply]
  unfold val_main_v96
  exact unit_core (val_main_v79 (F := Ideal) x0 x1 x2 x3 x4 x5 x6 x7 x8 x9 x10 x11 x12 x13 x14 x15 x16 x17 x18) r j (idx_main_v97 (ix1 r)) es

/-- One entry of the three unit-scaled parts laid side by side along the columns. -/
theorem join_apply (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) (r : Fin 50000) (j : Fin 384) :
    val_main_v104 (F := Ideal) x0 x1 x2 x3 x4 x5 x6 x7 x8 x9 x10 x11 x12 x13 x14 x15 x16 x17 x18 (ix2 r j) = joinAt x0 (val_main_v32 (F := Ideal) x0 x1 x2 x3 x5 x6 x7 x8 x9 x10) (val_main_v79 (F := Ideal) x0 x1 x2 x3 x4 x5 x6 x7 x8 x9 x10 x11 x12 x13 x14 x15 x16 x17 x18) r j := by
  unfold val_main_v104
  rw [Cert.ReferenceIdeal.Concat3.concat3_apply]
  unfold joinAt
  by_cases h1 : j.val < 128
  · rw [dif_pos h1, dif_pos h1]
    exact unit_x x0 x1 x2 x3 x4 x5 x6 x7 x8 x9 x10 x11 x12 x13 x14 x15 x16 x17 x18 r ⟨j.val, h1⟩
  · rw [dif_neg h1, dif_neg h1]
    by_cases h2 : j.val < 256
    · rw [dif_pos h2, dif_pos h2]
      exact unit_y1 x0 x1 x2 x3 x4 x5 x6 x7 x8 x9 x10 x11 x12 x13 x14 x15 x16 x17 x18 r ⟨j.val - 128, by omega⟩
    · rw [dif_neg h2, dif_neg h2]
      exact unit_y2 x0 x1 x2 x3 x4 x5 x6 x7 x8 x9 x10 x11 x12 x13 x14 x15 x16 x17 x18 r ⟨j.val - 256, by omega⟩

/-- The reference's result: the three unit-scaled rows side by side, scaled to unit length. -/
theorem ref_out (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v112 (F := Ideal) x0 x1 x2 x3 x4 x5 x6 x7 x8 x9 x10 x11 x12 x13 x14 x15 x16 x17 x18
      = ofEntries (outAt x0 (val_main_v32 (F := Ideal) x0 x1 x2 x3 x5 x6 x7 x8 x9 x10) (val_main_v79 (F := Ideal) x0 x1 x2 x3 x4 x5 x6 x7 x8 x9 x10 x11 x12 x13 x14 x15 x16 x17 x18)) := by
  funext i
  obtain ⟨r, j, rfl⟩ : ∃ (r : Fin 50000) (j : Fin 384), i = ix2 r j := ⟨i 0, i 1, eq_ix2 i⟩
  have e2 : idx_main_v111 (ix2 r j) = ix2 r (0 : Fin 1) :=
    funext fun a => Fin.ext (by match a with | ⟨0, _⟩ => rfl | ⟨1, _⟩ => rfl)
  have e1 : idx_main_v107 (ix2 r (0 : Fin 1)) = ix1 r :=
    funext fun a => Fin.ext (by match a with | ⟨0, _⟩ => rfl)
  have es : ∀ k : Fin 384, idx_main_v106 (ix1 r) k = ix2 r k := fun k =>
    funext fun a => Fin.ext (by match a with | ⟨0, _⟩ => rfl | ⟨1, _⟩ => rfl)
  -- the squared length of the joined row is the three parts' squared lengths added
  have hs : ∑ k : Fin 384, joinAt x0 (val_main_v32 (F := Ideal) x0 x1 x2 x3 x5 x6 x7 x8 x9 x10) (val_main_v79 (F := Ideal) x0 x1 x2 x3 x4 x5 x6 x7 x8 x9 x10 x11 x12 x13 x14 x15 x16 x17 x18) r k * joinAt x0 (val_main_v32 (F := Ideal) x0 x1 x2 x3 x5 x6 x7 x8 x9 x10) (val_main_v79 (F := Ideal) x0 x1 x2 x3 x4 x5 x6 x7 x8 x9 x10 x11 x12 x13 x14 x15 x16 x17 x18) r k
      = totalSq x0 (val_main_v32 (F := Ideal) x0 x1 x2 x3 x5 x6 x7 x8 x9 x10) (val_main_v79 (F := Ideal) x0 x1 x2 x3 x4 x5 x6 x7 x8 x9 x10 x11 x12 x13 x14 x15 x16 x17 x18) r :=
    sum_join (fun a => a * a) x0 (val_main_v32 (F := Ideal) x0 x1 x2 x3 x5 x6 x7 x8 x9 x10) (val_main_v79 (F := Ideal) x0 x1 x2 x3 x4 x5 x6 x7 x8 x9 x10 x11 x12 x13 x14 x15 x16 x17 x18) r
  rw [ofEntries_ix2, val_main_v112_apply, val_main_v111_apply, val_main_v110_apply, val_main_v109_apply,
    val_main_v107_apply, val_main_v108_apply, val_main_cst_17_apply, e2, e1, val_main_v106_apply,
    val_main_cst_16_apply]
  simp only [es, val_main_v105_apply, join_apply, Ideal.mulf_def, Ideal.maximumf_def,
    Ideal.hostUnary_rsqrt_def, Ideal.ofBits_def, Ideal.ofBits_zero_f32, zero_add]
  rw [hs]
  rfl

end Cert.ReferenceIdeal.StagesB

end
-- ==== Proof.RefWhole.lean ====
/-
  The reference's result as the composition of the stages: its two neighbourhood sums are the shared host chains of the
  arrays before them (by unfolding the stages' definitions), and every other stage is the entrywise function.
-/
import proofs.«129878_j77163382440873_1_alg».proof.Proof.RefStagesA
import proofs.«129878_j77163382440873_1_alg».proof.Proof.RefStagesB
import proofs.«129878_j77163382440873_1_alg».proof.Proof.Chains

noncomputable section

namespace Cert.ReferenceIdeal.Whole

open Idealize.ShloMosaic Idealize.ShloMosaic.TcCoe
open Cert.ReferenceIdeal Cert.ReferenceIdeal.Gen Cert.ReferenceIdeal.Read Cert.Spec Cert.Chains
open Cert.ReferenceIdeal.StagesA Cert.ReferenceIdeal.StagesB

/-- The reference's first neighbourhood sum is the shared chain of its first dense stage. -/
theorem ref_v28 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x5 x6 x7 x8 : (⟨S128, .f32⟩ : BufTy).Contents (Elt Ideal)) (x9 : (⟨S128x128, .f32⟩ : BufTy).Contents (Elt Ideal)) :
    val_main_v28 (F := Ideal) x0 x1 x2 x3 x5 x6 x7 x8 x9 = aggOf (F := Ideal) (val_main_v15 (F := Ideal) x0 x5 x6 x7 x8 x9) x3 x1 x2 := rfl

/-- The reference's second neighbourhood sum is the shared chain of its second normalisation, with the relation-scaled weights. -/
theorem ref_v70 (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) :
    val_main_v70 (F := Ideal) x0 x1 x2 x3 x4 x5 x6 x7 x8 x9 x10 x11 x12 x13 x14 x15
      = aggOf (F := Ideal) (val_main_v47 (F := Ideal) x0 x1 x2 x3 x5 x6 x7 x8 x9 x10 x11 x12 x13 x14) (evOf (F := Ideal) x3 x4 x15) x1 x2 := rfl

/-- The reference's result is `whole` of its arguments. -/
theorem ref_whole (x0 : (⟨S50000x128, .f32⟩ : BufTy).Contents (Elt Ideal)) (x1 x2 : (⟨S640000, .i32⟩ : BufTy).Contents (Elt Ideal)) (x3 : (⟨S640000, .f32⟩ : BufTy).Contents (Elt Ideal)) (x4 : (⟨S640000, .i32⟩ : BufTy).Contents (Elt Ideal)) (x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S500, .f32⟩ : BufTy).Contents (Elt Ideal)) (x16 : (⟨S50000x1, .f32⟩ : BufTy).Contents (Elt Ideal)) (x17 : (⟨S128x128, .f32⟩ : BufTy).Contents (Elt Ideal)) (x18 : (⟨S128, .f32⟩ : BufTy).Contents (Elt Ideal)) :
    val_main_v112 (F := Ideal) x0 x1 x2 x3 x4 x5 x6 x7 x8 x9 x10 x11 x12 x13 x14 x15 x16 x17 x18 = whole x0 x1 x2 x3 x4 x5 x6 x7 x8 x9 x10 x11 x12 x13 x14 x15 x16 x17 x18 := by
  rw [ref_out, ref_mix, ref_v70, ref_norm, ref_act, ref_v28, ref_proj]
  rfl

end Cert.ReferenceIdeal.Whole

end
-- ==== Proof.lean ====
/-
  The five claims about one graph-network forward pass written as four kernel regions with two host neighbourhood sums
  between them, against the same computation written as one host program.

  Frames: the two kernel programs' are the generated launch of the four regions over the host stretches; the
  reference's is its generated run with the result dropped. The idealisation rewrote nothing, so `preserves` is `True`.
  Equal results: read on the extended reals, the kernel program's result array is `Cert.Chains.whole` of the nineteen
  argument arrays (Proof/KernelFold.lean: each region's output array is an entrywise function of the arrays it reads,
  Proof/Region0–3.lean, and each host stretch a neighbourhood sum of the array before it), and so is the reference's
  (Proof/RefWhole.lean over Proof/RefStagesA/B.lean). The two sides differ only in grouping: the kernels work on blocks
  of 2000 rows, round their matrix operands to bf16 (the identity on the extended reals), and take the joined row's
  squared length as the sum of its three parts' squared lengths where the reference sums the 384 joined columns at
  once — equal because addition on the extended reals is commutative and associative (Proof/Spec.lean `sum_join`).
  No finiteness of the inputs is used.
-/
import proofs.«129878_j77163382440873_1_alg».proof.Defs
import proofs.«129878_j77163382440873_1_alg».proof.Proof.Gen.Kernel
import proofs.«129878_j77163382440873_1_alg».proof.Proof.Gen.Kernel.Skeleton
import proofs.«129878_j77163382440873_1_alg».proof.Proof.Gen.Kernel.Launch
import proofs.«129878_j77163382440873_1_alg».proof.Proof.Gen.Kernel.Points
import proofs.«129878_j77163382440873_1_alg».proof.Proof.Gen.Kernel.Frame
import proofs.«129878_j77163382440873_1_alg».proof.Proof.Gen.KernelIdeal
import proofs.«129878_j77163382440873_1_alg».proof.Proof.Gen.KernelIdeal.Skeleton
import proofs.«129878_j77163382440873_1_alg».proof.Proof.Gen.KernelIdeal.Launch
import proofs.«129878_j77163382440873_1_alg».proof.Proof.Gen.KernelIdeal.Points
import proofs.«129878_j77163382440873_1_alg».proof.Proof.Gen.KernelIdeal.Frame
import proofs.«129878_j77163382440873_1_alg».proof.Proof.Gen.ReferenceIdeal
import proofs.«129878_j77163382440873_1_alg».proof.Proof.Gen.ReferenceIdeal.Run
import proofs.«129878_j77163382440873_1_alg».proof.Proof.Gen.ReferenceIdeal.Read
import proofs.«129878_j77163382440873_1_alg».proof.Proof.Gen.Pre_finite_inputs
import proofs.«129878_j77163382440873_1_alg».proof.Proof.KernelRun
import proofs.«129878_j77163382440873_1_alg».proof.Proof.KernelFold
import proofs.«129878_j77163382440873_1_alg».proof.Proof.RefWhole
import Idealize.ShloMosaic.Adequacy
import Idealize.ShloMosaic.Init

noncomputable section

namespace Cert.Proof

open Idealize.ShloMosaic Idealize.SL.Sem

/-- The kernel program at the bit level runs and leaves its arguments unchanged. -/
theorem frame_kernel : Cert.frame_Kernel := fun m ρ _ => Cert.Kernel.Gen.frame m ρ

/-- The idealised kernel program runs and leaves its arguments unchanged. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the nineteen arguments both programs end with the result array at the same function
    of them. -/
theorem algebraic : Cert.algebraic_KernelIdeal_ReferenceIdeal := by
  intro m ρ m' ρ' _ hagree
  refine ⟨fun c => Cert.Chains.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Fold.result_eq m ρ c), (h c).2⟩)
      (Cert.KernelIdeal.RunOut.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v112_eq, Cert.ReferenceIdeal.Whole.ref_whole, h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
